-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S16x256 : Shape := ⟨2, ![16, 256]⟩
abbrev S256x16 : Shape := ⟨2, ![256, 16]⟩
abbrev S16x7x7 : Shape := ⟨3, ![16, 7, 7]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S16x256 : S_.BroadcastsInDim S16x256 (![] : Fin 0 → Fin S16x256.rank)
  reducesTo_S16x256_S_d0_1 : S16x256.ReducesTo [0, 1] S_
  bcast_S_S256x16 : S_.BroadcastsInDim S256x16 (![] : Fin 0 → Fin S256x16.rank)
  reducesTo_S256x16_S_d0_1 : S256x16.ReducesTo [0, 1] S_
  bcast_S_S16x7x7 : S_.BroadcastsInDim S16x7x7 (![] : Fin 0 → Fin S16x7x7.rank)
  reducesTo_S16x7x7_S_d0_1_2 : S16x7x7.ReducesTo [0, 1, 2] S_

variable [Facts]

def fn_part1 {F : FTy → Type} [FloatOps F] (main_v13 : IVec S_ 1) (main_v16 : IVec S16x7x7 1) : IVec S_ 1 :=
  let main_c_5 : IVec S_ 1 := constantI S_ 1 1#1
  let main_v17 : IVec S_ 1 := (fun x v => Host.reduce IntOp.andi x v reducesTo_S16x7x7_S_d0_1_2 h_S_) main_v16 main_c_5
  let main_v18 : IVec S_ 1 := andi main_v13 main_v17
  main_v18

def fn {F : FTy → Type} [FloatOps F] (main_arg0 : FVec F S32x256x56x56 .f32) (main_arg1 : FVec F S16x256 .f32) (main_arg2 : FVec F S256x16 .f32) (main_arg3 : FVec F S16x7x7 .f32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_v4 : FVec F S16x256 .f32 := Host.absf main_arg1
  let main_cst_0 : FVec F S_ .f32 := constant S_ .f32 0x7F800000#32
  let main_v5 : FVec F S16x256 .f32 := broadcastInDim S16x256 ![] bcast_S_S16x256 main_cst_0
  let main_v6 : IVec S16x256 1 := cmpf .olt main_v4 main_v5
  let main_c_1 : IVec S_ 1 := constantI S_ 1 1#1
  let main_v7 : IVec S_ 1 := (fun x v => Host.reduce IntOp.andi x v reducesTo_S16x256_S_d0_1 h_S_) main_v6 main_c_1
  let main_v8 : IVec S_ 1 := andi main_v3 main_v7
  let main_v9 : FVec F S256x16 .f32 := Host.absf main_arg2
  let main_cst_2 : FVec F S_ .f32 := constant S_ .f32 0x7F800000#32
  let main_v10 : FVec F S256x16 .f32 := broadcastInDim S256x16 ![] bcast_S_S256x16 main_cst_2
  let main_v11 : IVec S256x16 1 := cmpf .olt main_v9 main_v10
  let main_c_3 : IVec S_ 1 := constantI S_ 1 1#1
  let main_v12 : IVec S_ 1 := (fun x v => Host.reduce IntOp.andi x v reducesTo_S256x16_S_d0_1 h_S_) main_v11 main_c_3
  let main_v13 : IVec S_ 1 := andi main_v8 main_v12
  let main_v14 : FVec F S16x7x7 .f32 := Host.absf main_arg3
  let main_cst_4 : FVec F S_ .f32 := constant S_ .f32 0x7F800000#32
  let main_v15 : FVec F S16x7x7 .f32 := broadcastInDim S16x7x7 ![] bcast_S_S16x7x7 main_cst_4
  let main_v16 : IVec S16x7x7 1 := cmpf .olt main_v14 main_v15
  fn_part1 (F := F) main_v13 main_v16
-- ==== Kernel.lean ====
abbrev S32x256x56x56 : Shape := ⟨4, ![32, 256, 56, 56]⟩
abbrev S16x256 : Shape := ⟨2, ![16, 256]⟩
abbrev S256x16 : Shape := ⟨2, ![256, 16]⟩
abbrev S16x7x7 : Shape := ⟨3, ![16, 7, 7]⟩
abbrev S7x7x16 : Shape := ⟨3, ![7, 7, 16]⟩
abbrev S32x1x256 : Shape := ⟨3, ![32, 1, 256]⟩
abbrev S1x256x56x56 : Shape := ⟨4, ![1, 256, 56, 56]⟩
abbrev S1x1x256 : Shape := ⟨3, ![1, 1, 256]⟩
abbrev S256x56x56 : Shape := ⟨3, ![256, 56, 56]⟩
abbrev S256x8x8 : Shape := ⟨3, ![256, 8, 8]⟩
abbrev S256x8 : Shape := ⟨2, ![256, 8]⟩
abbrev S256 : Shape := ⟨1, ![256]⟩
abbrev S256x1 : Shape := ⟨2, ![256, 1]⟩
abbrev S256x7 : Shape := ⟨2, ![256, 7]⟩
abbrev S256x49 : Shape := ⟨2, ![256, 49]⟩
abbrev S49x256 : Shape := ⟨2, ![49, 256]⟩
abbrev S7x7x256 : Shape := ⟨3, ![7, 7, 256]⟩
abbrev S7x7x1x256 : Shape := ⟨4, ![7, 7, 1, 256]⟩
abbrev S7x7x16x1 : Shape := ⟨4, ![7, 7, 16, 1]⟩
abbrev S7x7x16x256 : Shape := ⟨4, ![7, 7, 16, 256]⟩
abbrev S1x256 : Shape := ⟨2, ![1, 256]⟩
abbrev S1x16 : Shape := ⟨2, ![1, 16]⟩
abbrev S256x3136 : Shape := ⟨2, ![256, 3136]⟩

abbrev nBuf : Space → Nat
  | .hbm => 9
  | .vmem => 13
  | .smem => 0
  | _ => 0

abbrev bufTy : (tb : Table) → Fin (tcTables nBuf tb) → BufTy
  | .hbm, ⟨0, _⟩ => ⟨S32x256x56x56, .f32⟩
  | .hbm, ⟨1, _⟩ => ⟨S16x256, .f32⟩
  | .hbm, ⟨2, _⟩ => ⟨S256x16, .f32⟩
  | .hbm, ⟨3, _⟩ => ⟨S16x7x7, .f32⟩
  | .hbm, ⟨4, _⟩ => ⟨S256x16, .f32⟩
  | .hbm, ⟨5, _⟩ => ⟨S16x256, .f32⟩
  | .hbm, ⟨6, _⟩ => ⟨S7x7x16, .f32⟩
  | .hbm, ⟨7, _⟩ => ⟨S32x1x256, .f32⟩
  | .hbm, ⟨8, _⟩ => ⟨S32x256x56x56, .f32⟩
  | .local _ .vmem, ⟨0, _⟩ => ⟨S1x256x56x56, .f32⟩
  | .local _ .vmem, ⟨1, _⟩ => ⟨S1x256x56x56, .f32⟩
  | .local _ .vmem, ⟨2, _⟩ => ⟨S256x16, .f32⟩
  | .local _ .vmem, ⟨3, _⟩ => ⟨S16x256, .f32⟩
  | .local _ .vmem, ⟨4, _⟩ => ⟨S7x7x16, .f32⟩
  | .local _ .vmem, ⟨5, _⟩ => ⟨S1x1x256, .f32⟩
  | .local _ .vmem, ⟨6, _⟩ => ⟨S1x1x256, .f32⟩
  | .local _ .vmem, ⟨7, _⟩ => ⟨S1x256x56x56, .f32⟩
  | .local _ .vmem, ⟨8, _⟩ => ⟨S1x256x56x56, .f32⟩
  | .local _ .vmem, ⟨9, _⟩ => ⟨S1x1x256, .f32⟩
  | .local _ .vmem, ⟨10, _⟩ => ⟨S1x1x256, .f32⟩
  | .local _ .vmem, ⟨11, _⟩ => ⟨S1x256x56x56, .f32⟩
  | .local _ .vmem, ⟨12, _⟩ => ⟨S1x256x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x7x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x56x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x56x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S16x256_S256x16_1_0 : S16x256.Transposes [1, 0] S256x16
  transposes_S256x16_S16x256_1_0 : S256x16.Transposes [1, 0] S16x256
  transposes_S16x7x7_S7x7x16_1_2_0 : S16x7x7.Transposes [1, 2, 0] S7x7x16
  inb_S1x256x56x56_S1x256x56x56_0_0_0_0 : ∀ a, (![0, 0, 0, 0] : Fin 4 → Nat) a + S1x256x56x56.size a ≤ S1x256x56x56.size a
  h_S1x256x56x56 : 0 < S1x256x56x56.numel
  shapeCasts_S1x256x56x56_S256x56x56 : S1x256x56x56.ShapeCasts S256x56x56
  slices_S256x56x56_o0_0_0_S256x8x8 : S256x56x56.Slices ![0, 0, 0] S256x8x8
  reduces_S256x8x8_S256x8 : S256x8x8.Reduces [2] S256x8
  reduces_S256x8_S256 : S256x8.Reduces [1] S256
  shapeCasts_S256_S256x1 : S256.ShapeCasts S256x1
  slices_S256x56x56_o0_0_8_S256x8x8 : S256x56x56.Slices ![0, 0, 8] S256x8x8
  slices_S256x56x56_o0_0_16_S256x8x8 : S256x56x56.Slices ![0, 0, 16] S256x8x8
  slices_S256x56x56_o0_0_24_S256x8x8 : S256x56x56.Slices ![0, 0, 24] S256x8x8
  slices_S256x56x56_o0_0_32_S256x8x8 : S256x56x56.Slices ![0, 0, 32] S256x8x8
  slices_S256x56x56_o0_0_40_S256x8x8 : S256x56x56.Slices ![0, 0, 40] S256x8x8
  slices_S256x56x56_o0_0_48_S256x8x8 : S256x56x56.Slices ![0, 0, 48] S256x8x8
  concatenates_S256x1_S256x1_S256x1_S256x1_S256x1_S256x1_S256x1_S256x7_d1 : Shape.Concatenates [S256x1, S256x1, S256x1, S256x1, S256x1, S256x1, S256x1] S256x7 1
  slices_S256x56x56_o0_8_0_S256x8x8 : S256x56x56.Slices ![0, 8, 0] S256x8x8
  slices_S256x56x56_o0_8_8_S256x8x8 : S256x56x56.Slices ![0, 8, 8] S256x8x8
  slices_S256x56x56_o0_8_16_S256x8x8 : S256x56x56.Slices ![0, 8, 16] S256x8x8
  slices_S256x56x56_o0_8_24_S256x8x8 : S256x56x56.Slices ![0, 8, 24] S256x8x8
  slices_S256x56x56_o0_8_32_S256x8x8 : S256x56x56.Slices ![0, 8, 32] S256x8x8
  slices_S256x56x56_o0_8_40_S256x8x8 : S256x56x56.Slices ![0, 8, 40] S256x8x8
  slices_S256x56x56_o0_8_48_S256x8x8 : S256x56x56.Slices ![0, 8, 48] S256x8x8
  slices_S256x56x56_o0_16_0_S256x8x8 : S256x56x56.Slices ![0, 16, 0] S256x8x8
  slices_S256x56x56_o0_16_8_S256x8x8 : S256x56x56.Slices ![0, 16, 8] S256x8x8
  slices_S256x56x56_o0_16_16_S256x8x8 : S256x56x56.Slices ![0, 16, 16] S256x8x8
  slices_S256x56x56_o0_16_24_S256x8x8 : S256x56x56.Slices ![0, 16, 24] S256x8x8
  slices_S256x56x56_o0_16_32_S256x8x8 : S256x56x56.Slices ![0, 16, 32] S256x8x8
  slices_S256x56x56_o0_16_40_S256x8x8 : S256x56x56.Slices ![0, 16, 40] S256x8x8
  slices_S256x56x56_o0_16_48_S256x8x8 : S256x56x56.Slices ![0, 16, 48] S256x8x8
  slices_S256x56x56_o0_24_0_S256x8x8 : S256x56x56.Slices ![0, 24, 0] S256x8x8
  slices_S256x56x56_o0_24_8_S256x8x8 : S256x56x56.Slices ![0, 24, 8] S256x8x8
  slices_S256x56x56_o0_24_16_S256x8x8 : S256x56x56.Slices ![0, 24, 16] S256x8x8
  slices_S256x56x56_o0_24_24_S256x8x8 : S256x56x56.Slices ![0, 24, 24] S256x8x8
  slices_S256x56x56_o0_24_32_S256x8x8 : S256x56x56.Slices ![0, 24, 32] S256x8x8
  slices_S256x56x56_o0_24_40_S256x8x8 : S256x56x56.Slices ![0, 24, 40] S256x8x8
  slices_S256x56x56_o0_24_48_S256x8x8 : S256x56x56.Slices ![0, 24, 48] S256x8x8
  slices_S256x56x56_o0_32_0_S256x8x8 : S256x56x56.Slices ![0, 32, 0] S256x8x8
  slices_S256x56x56_o0_32_8_S256x8x8 : S256x56x56.Slices ![0, 32, 8] S256x8x8
  slices_S256x56x56_o0_32_16_S256x8x8 : S256x56x56.Slices ![0, 32, 16] S256x8x8
  slices_S256x56x56_o0_32_24_S256x8x8 : S256x56x56.Slices ![0, 32, 24] S256x8x8
  slices_S256x56x56_o0_32_32_S256x8x8 : S256x56x56.Slices ![0, 32, 32] S256x8x8
  slices_S256x56x56_o0_32_40_S256x8x8 : S256x56x56.Slices ![0, 32, 40] S256x8x8
  slices_S256x56x56_o0_32_48_S256x8x8 : S256x56x56.Slices ![0, 32, 48] S256x8x8
  slices_S256x56x56_o0_40_0_S256x8x8 : S256x56x56.Slices ![0, 40, 0] S256x8x8
  slices_S256x56x56_o0_40_8_S256x8x8 : S256x56x56.Slices ![0, 40, 8] S256x8x8
  slices_S256x56x56_o0_40_16_S256x8x8 : S256x56x56.Slices ![0, 40, 16] S256x8x8
  slices_S256x56x56_o0_40_24_S256x8x8 : S256x56x56.Slices ![0, 40, 24] S256x8x8
  slices_S256x56x56_o0_40_32_S256x8x8 : S256x56x56.Slices ![0, 40, 32] S256x8x8
  slices_S256x56x56_o0_40_40_S256x8x8 : S256x56x56.Slices ![0, 40, 40] S256x8x8
  slices_S256x56x56_o0_40_48_S256x8x8 : S256x56x56.Slices ![0, 40, 48] S256x8x8
  slices_S256x56x56_o0_48_0_S256x8x8 : S256x56x56.Slices ![0, 48, 0] S256x8x8
  slices_S256x56x56_o0_48_8_S256x8x8 : S256x56x56.Slices ![0, 48, 8] S256x8x8
  slices_S256x56x56_o0_48_16_S256x8x8 : S256x56x56.Slices ![0, 48, 16] S256x8x8
  slices_S256x56x56_o0_48_24_S256x8x8 : S256x56x56.Slices ![0, 48, 24] S256x8x8
  slices_S256x56x56_o0_48_32_S256x8x8 : S256x56x56.Slices ![0, 48, 32] S256x8x8
  slices_S256x56x56_o0_48_40_S256x8x8 : S256x56x56.Slices ![0, 48, 40] S256x8x8
  slices_S256x56x56_o0_48_48_S256x8x8 : S256x56x56.Slices ![0, 48, 48] S256x8x8
  concatenates_S256x7_S256x7_S256x7_S256x7_S256x7_S256x7_S256x7_S256x49_d1 : Shape.Concatenates [S256x7, S256x7, S256x7, S256x7, S256x7, S256x7, S256x7] S256x49 1
  transposes_S256x49_p1_0_S49x256 : S256x49.Transposes [1, 0] S49x256
  shapeCasts_S49x256_S7x7x256 : S49x256.ShapeCasts S7x7x256
  inb_S7x7x16_S7x7x16_0_0_0 : ∀ a, (![0, 0, 0] : Fin 3 → Nat) a + S7x7x16.size a ≤ S7x7x16.size a
  h_S7x7x16 : 0 < S7x7x16.numel
  shapeCasts_S7x7x16_S7x7x16 : S7x7x16.ShapeCasts S7x7x16
  shapeCasts_S7x7x256_S7x7x1x256 : S7x7x256.ShapeCasts S7x7x1x256
  shapeCasts_S7x7x16_S7x7x16x1 : S7x7x16.ShapeCasts S7x7x16x1
  broadcasts_S7x7x1x256_S7x7x16x256 : S7x7x1x256.Broadcasts S7x7x16x256
  broadcasts_S7x7x16x1_S7x7x16x256 : S7x7x16x1.Broadcasts S7x7x16x256
  reduces_S7x7x16x256_S16x256 : S7x7x16x256.Reduces [0, 1] S16x256
  reduces_S16x256_S256 : S16x256.Reduces [0] S256
  shapeCasts_S256_S1x256 : S256.ShapeCasts S1x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  shapeCasts_S256x56x56_S256x3136 : S256x56x56.ShapeCasts S256x3136
  transposes_S1x256_p1_0_S256x1 : S1x256.Transposes [1, 0] S256x1
  broadcasts_S256x1_S256x3136 : S256x1.Broadcasts S256x3136
  shapeCasts_S256x3136_S256x56x56 : S256x3136.ShapeCasts S256x56x56
  shapeCasts_S256x56x56_S1x256x56x56 : S256x56x56.ShapeCasts S1x256x56x56
  dot_S1x256_S256x16_S1x16_1_0_0_1_n_n_wf : DotDims.WF S1x256 S256x16 S1x16 [1] [0] [0] [1] [] []
  dot_S1x16_S16x256_S1x256_1_0_0_1_n_n_wf : DotDims.WF S1x16 S16x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x56x56.size a ≤ S32x256x56x56.size a
  hwx0_0 : ∀ i : grid0.Coords, EltTy.bits .f32 = 32 ∨ (Rect.block (s := S32x256x56x56) S1x256x56x56.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S16x256.size a
  hwx0_2 : ∀ i : grid0.Coords, EltTy.bits .f32 = 32 ∨ (Rect.block (s := S16x256) S16x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x7x16.size a ≤ S7x7x16.size a
  hwx0_3 : ∀ i : grid0.Coords, EltTy.bits .f32 = 32 ∨ (Rect.block (s := S7x7x16) S7x7x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x256.size a
  hwx0_4 : ∀ i : grid0.Coords, EltTy.bits .f32 = 32 ∨ (Rect.block (s := S32x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x56x56.size a ≤ S32x256x56x56.size a
  hwx1_0 : ∀ i : grid1.Coords, EltTy.bits .f32 = 32 ∨ (Rect.block (s := S32x256x56x56) S1x256x56x56.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256.size a ≤ S32x1x256.size a
  hwx1_1 : ∀ i : grid1.Coords, EltTy.bits .f32 = 32 ∨ (Rect.block (s := S32x1x256) S1x1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x56x56.size a ≤ S32x256x56x56.size a
  hwx1_2 : ∀ i : grid1.Coords, EltTy.bits .f32 = 32 ∨ (Rect.block (s := S32x256x56x56) S1x256x56x56.size (cc1_transform_2 i) (hinb1_2 i)).WholeWords (EltTy.packing .f32)

variable [Facts₀]

def dot_S1x256_S256x16_S1x16_1_0_0_1_n_n : DotDims S1x256 S256x16 S1x16 where
  lhsContracting := [1]
  rhsContracting := [0]
  lhsNonContracting := [0]
  rhsNonContracting := [1]
  lhsBatch := []
  rhsBatch := []
  wf := dot_S1x256_S256x16_S1x16_1_0_0_1_n_n_wf
def dot_S1x16_S16x256_S1x256_1_0_0_1_n_n : DotDims S1x16 S16x256 S1x256 where
  lhsContracting := [1]
  rhsContracting := [0]
  lhsNonContracting := [0]
  rhsNonContracting := [1]
  lhsBatch := []
  rhsBatch := []
  wf := dot_S1x16_S16x256_S1x256_1_0_0_1_n_n_wf

abbrev win0_0 : Pipeline.Window sig grid0 :=
  Pipeline.Window.ofSpec (Memref.whole main_arg0) S1x256x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S7x7x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x256x56x56.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x56x56.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x256x56x56 : Shape := ⟨4, ![32, 256, 56, 56]⟩
abbrev S16x256 : Shape := ⟨2, ![16, 256]⟩
abbrev S256x16 : Shape := ⟨2, ![256, 16]⟩
abbrev S16x7x7 : Shape := ⟨3, ![16, 7, 7]⟩
abbrev S32x256x7x8x7x8 : Shape := ⟨6, ![32, 256, 7, 8, 7, 8]⟩
abbrev S_ : Shape := ⟨0, ![]⟩
abbrev S32x256x7x7 : Shape := ⟨4, ![32, 256, 7, 7]⟩
abbrev S32x256x1x7x7 : Shape := ⟨5, ![32, 256, 1, 7, 7]⟩
abbrev S1x1x16x7x7 : Shape := ⟨5, ![1, 1, 16, 7, 7]⟩
abbrev S32x256x16x7x7 : Shape := ⟨5, ![32, 256, 16, 7, 7]⟩
abbrev S32x256x16 : Shape := ⟨3, ![32, 256, 16]⟩
abbrev S32x256 : Shape := ⟨2, ![32, 256]⟩
abbrev S32x16 : Shape := ⟨2, ![32, 16]⟩
abbrev S32x256x1x1 : Shape := ⟨4, ![32, 256, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S16x256, .f32⟩
  | .hbm, ⟨2, _⟩ => ⟨S256x16, .f32⟩
  | .hbm, ⟨3, _⟩ => ⟨S16x7x7, .f32⟩
  | .hbm, ⟨4, _⟩ => ⟨S32x256x7x8x7x8, .f32⟩
  | .hbm, ⟨5, _⟩ => ⟨S_, .f32⟩
  | .hbm, ⟨6, _⟩ => ⟨S32x256x7x7, .f32⟩
  | .hbm, ⟨7, _⟩ => ⟨S_, .f32⟩
  | .hbm, ⟨8, _⟩ => ⟨S32x256x7x7, .f32⟩
  | .hbm, ⟨9, _⟩ => ⟨S32x256x7x7, .f32⟩
  | .hbm, ⟨10, _⟩ => ⟨S32x256x1x7x7, .f32⟩
  | .hbm, ⟨11, _⟩ => ⟨S1x1x16x7x7, .f32⟩
  | .hbm, ⟨12, _⟩ => ⟨S32x256x16x7x7, .f32⟩
  | .hbm, ⟨13, _⟩ => ⟨S32x256x16x7x7, .f32⟩
  | .hbm, ⟨14, _⟩ => ⟨S32x256x16x7x7, .f32⟩
  | .hbm, ⟨15, _⟩ => ⟨S_, .f32⟩
  | .hbm, ⟨16, _⟩ => ⟨S32x256x16, .f32⟩
  | .hbm, ⟨17, _⟩ => ⟨S_, .f32⟩
  | .hbm, ⟨18, _⟩ => ⟨S32x256x16, .f32⟩
  | .hbm, ⟨19, _⟩ => ⟨S32x256x16, .f32⟩
  | .hbm, ⟨20, _⟩ => ⟨S_, .f32⟩
  | .hbm, ⟨21, _⟩ => ⟨S32x256, .f32⟩
  | .hbm, ⟨22, _⟩ => ⟨S_, .f32⟩
  | .hbm, ⟨23, _⟩ => ⟨S32x256, .f32⟩
  | .hbm, ⟨24, _⟩ => ⟨S32x256, .f32⟩
  | .hbm, ⟨25, _⟩ => ⟨S_, .f32⟩
  | .hbm, ⟨26, _⟩ => ⟨S32x256x16, .f32⟩
  | .hbm, ⟨27, _⟩ => ⟨S_, .f32⟩
  | .hbm, ⟨28, _⟩ => ⟨S32x256, .f32⟩
  | .hbm, ⟨29, _⟩ => ⟨S_, .f32⟩
  | .hbm, ⟨30, _⟩ => ⟨S32x256, .f32⟩
  | .hbm, ⟨31, _⟩ => ⟨S32x256, .f32⟩
  | .hbm, ⟨32, _⟩ => ⟨S_, .f32⟩
  | .hbm, ⟨33, _⟩ => ⟨S32x256x16, .f32⟩
  | .hbm, ⟨34, _⟩ => ⟨S_, .f32⟩
  | .hbm, ⟨35, _⟩ => ⟨S32x256, .f32⟩
  | .hbm, ⟨36, _⟩ => ⟨S_, .f32⟩
  | .hbm, ⟨37, _⟩ => ⟨S32x256, .f32⟩
  | .hbm, ⟨38, _⟩ => ⟨S32x256, .f32⟩
  | .hbm, ⟨39, _⟩ => ⟨S256x16, .f32⟩
  | .hbm, ⟨40, _⟩ => ⟨S32x16, .f32⟩
  | .hbm, ⟨41, _⟩ => ⟨S_, .f32⟩
  | .hbm, ⟨42, _⟩ => ⟨S32x16, .f32⟩
  | .hbm, ⟨43, _⟩ => ⟨S32x16, .f32⟩
  | .hbm, ⟨44, _⟩ => ⟨S16x256, .f32⟩
  | .hbm, ⟨45, _⟩ => ⟨S32x256, .f32⟩
  | .hbm, ⟨46, _⟩ => ⟨S256x16, .f32⟩
  | .hbm, ⟨47, _⟩ => ⟨S32x16, .f32⟩
  | .hbm, ⟨48, _⟩ => ⟨S_, .f32⟩
  | .hbm, ⟨49, _⟩ => ⟨S32x16, .f32⟩
  | .hbm, ⟨50, _⟩ => ⟨S32x16, .f32⟩
  | .hbm, ⟨51, _⟩ => ⟨S16x256, .f32⟩
  | .hbm, ⟨52, _⟩ => ⟨S32x256, .f32⟩
  | .hbm, ⟨53, _⟩ => ⟨S32x256, .f32⟩
  | .hbm, ⟨54, _⟩ => ⟨S256x16, .f32⟩
  | .hbm, ⟨55, _⟩ => ⟨S32x16, .f32⟩
  | .hbm, ⟨56, _⟩ => ⟨S_, .f32⟩
  | .hbm, ⟨57, _⟩ => ⟨S32x16, .f32⟩
  | .hbm, ⟨58, _⟩ => ⟨S32x16, .f32⟩
  | .hbm, ⟨59, _⟩ => ⟨S16x256, .f32⟩
  | .hbm, ⟨60, _⟩ => ⟨S32x256, .f32⟩
  | .hbm, ⟨61, _⟩ => ⟨S32x256, .f32⟩
  | .hbm, ⟨62, _⟩ => ⟨S32x256, .f32⟩
  | .hbm, ⟨63, _⟩ => ⟨S32x256, .f32⟩
  | .hbm, ⟨64, _⟩ => ⟨S_, .f32⟩
  | .hbm, ⟨65, _⟩ => ⟨S32x256, .f32⟩
  | .hbm, ⟨66, _⟩ => ⟨S32x256, .f32⟩
  | .hbm, ⟨67, _⟩ => ⟨S_, .f32⟩
  | .hbm, ⟨68, _⟩ => ⟨S32x256, .f32⟩
  | .hbm, ⟨69, _⟩ => ⟨S32x256, .f32⟩
  | .hbm, ⟨70, _⟩ => ⟨S32x256x1x1, .f32⟩
  | .hbm, ⟨71, _⟩ => ⟨S32x256x56x56, .f32⟩
  | .hbm, ⟨72, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_cst_9 : Ref sig .tc := ⟨.hbm, 34, rfl⟩
abbrev main_v20 : Ref sig .tc := ⟨.hbm, 35, rfl⟩
abbrev main_cst_10 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_cst : Ref sig .tc := ⟨.hbm, 48, rfl⟩
abbrev main_call1_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_call2_cst : Ref sig .tc := ⟨.hbm, 56, rfl⟩
abbrev main_call2_v0 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_11 : Ref sig .tc := ⟨.hbm, 64, rfl⟩
abbrev main_v42 : Ref sig .tc := ⟨.hbm, 65, rfl⟩
abbrev main_v43 : Ref sig .tc := ⟨.hbm, 66, rfl⟩
abbrev main_cst_12 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩

abbrev nD : Nat := 1
abbrev τ : Topo := Topo.v7x

variable {F : FTy → Type} [FloatOps F]

class Facts₀ : Prop where
  shapeCasts_S32x256x56x56_S32x256x7x8x7x8 : S32x256x56x56.ShapeCasts S32x256x7x8x7x8
  reducesTo_S32x256x7x8x7x8_S32x256x7x7_d3_5 : S32x256x7x8x7x8.ReducesTo [3, 5] S32x256x7x7
  h_S_ : 0 < S_.numel
  bcast_S_S32x256x7x7 : S_.BroadcastsInDim S32x256x7x7 (![] : Fin 0 → Fin S32x256x7x7.rank)
  bcast_S32x256x7x7_S32x256x1x7x7_0_1_3_4 : S32x256x7x7.BroadcastsInDim S32x256x1x7x7 (![0, 1, 3, 4] : Fin 4 → Fin S32x256x1x7x7.rank)
  bcast_S16x7x7_S1x1x16x7x7_2_3_4 : S16x7x7.BroadcastsInDim S1x1x16x7x7 (![2, 3, 4] : Fin 3 → Fin S1x1x16x7x7.rank)
  bcast_S32x256x1x7x7_S32x256x16x7x7_0_1_2_3_4 : S32x256x1x7x7.BroadcastsInDim S32x256x16x7x7 (![0, 1, 2, 3, 4] : Fin 5 → Fin S32x256x16x7x7.rank)
  bcast_S1x1x16x7x7_S32x256x16x7x7_0_1_2_3_4 : S1x1x16x7x7.BroadcastsInDim S32x256x16x7x7 (![0, 1, 2, 3, 4] : Fin 5 → Fin S32x256x16x7x7.rank)
  reducesTo_S32x256x16x7x7_S32x256x16_d3_4 : S32x256x16x7x7.ReducesTo [3, 4] S32x256x16
  bcast_S_S32x256x16 : S_.BroadcastsInDim S32x256x16 (![] : Fin 0 → Fin S32x256x16.rank)
  reducesTo_S32x256x16_S32x256_d2 : S32x256x16.ReducesTo [2] S32x256
  bcast_S_S32x256 : S_.BroadcastsInDim S32x256 (![] : Fin 0 → Fin S32x256.rank)
  transposes_S16x256_S256x16_1_0 : S16x256.Transposes [1, 0] S256x16
  bcast_S_S32x16 : S_.BroadcastsInDim S32x16 (![] : Fin 0 → Fin S32x16.rank)
  transposes_S256x16_S16x256_1_0 : S256x16.Transposes [1, 0] S16x256
  bcast_S32x256_S32x256x1x1_0_1 : S32x256.BroadcastsInDim S32x256x1x1 (![0, 1] : Fin 2 → Fin S32x256x1x1.rank)
  bcast_S32x256x1x1_S32x256x56x56_0_1_2_3 : S32x256x1x1.BroadcastsInDim S32x256x56x56 (![0, 1, 2, 3] : Fin 4 → Fin S32x256x56x56.rank)
  dot_S32x256_S256x16_S32x16_1_0_0_1_n_n_wf : DotDims.WF S32x256 S256x16 S32x16 [1] [0] [0] [1] [] []
  dot_S32x16_S16x256_S32x256_1_0_0_1_n_n_wf : DotDims.WF S32x16 S16x256 S32x256 [1] [0] [0] [1] [] []

variable [Facts₀]

def dot_S32x256_S256x16_S32x16_1_0_0_1_n_n : DotDims S32x256 S256x16 S32x16 where
  lhsContracting := [1]
  rhsContracting := [0]
  lhsNonContracting := [0]
  rhsNonContracting := [1]
  lhsBatch := []
  rhsBatch := []
  wf := dot_S32x256_S256x16_S32x16_1_0_0_1_n_n_wf
def dot_S32x16_S16x256_S32x256_1_0_0_1_n_n : DotDims S32x16 S16x256 S32x256 where
  lhsContracting := [1]
  rhsContracting := [0]
  lhsNonContracting := [0]
  rhsNonContracting := [1]
  lhsBatch := []
  rhsBatch := []
  wf := dot_S32x16_S16x256_S32x256_1_0_0_1_n_n_wf

class Facts : Prop extends Facts₀ where

variable [Facts]
-- ==== Proof.KernelArrays.lean ====
/-
  The arrays the two regions find and the blocks their windows cut out of them.

  Before the first region the host turns the first layer over (16 x 256 -> 256 x 16), the second layer over
  (256 x 16 -> 16 x 256) and moves the filters' frequency axis last (16 x 7 x 7 -> 7 x 7 x 16); the image array is the
  argument itself.  Grid point t of either region is image t: the image and gate windows move along the leading
  axis with the point and the weight windows stay put, so a block's entry is the array's entry with the leading
  coordinate replaced by t (image, gate) or the same entry (weights, filters).
-/
import proofs.«424325_j292057776143_3_alg».proof.Proof.Gen.KernelIdeal.Frame
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.KernelArrays

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The four argument arrays as launched, by their literal types. -/
abbrev argX (c : Dev nD) : Vec Ideal S32x256x56x56 .f32 := m ((c.tc : Thread nD τ).loc main_arg0)
abbrev argW1 (c : Dev nD) : Vec Ideal S16x256 .f32 := m ((c.tc : Thread nD τ).loc main_arg1)
abbrev argW2 (c : Dev nD) : Vec Ideal S256x16 .f32 := m ((c.tc : Thread nD τ).loc main_arg2)
abbrev argD (c : Dev nD) : Vec Ideal S16x7x7 .f32 := m ((c.tc : Thread nD τ).loc main_arg3)

/-! ## What the first region finds -/

theorem V1_arg0 (c : Dev nD) : (V1 m ρ c main_arg0 : Vec Ideal S32x256x56x56 .f32) = argX m c := by
  show StableHlo.after hostOps0 (W0 m ρ c) (Proc.devRef .tc main_arg0) = _
  after_results

theorem V1_v0 (c : Dev nD) : (V1 m ρ c main_v0 : Vec Ideal S256x16 .f32)
    = transpose S256x16 [1, 0] (argW1 m c) transposes_S16x256_S256x16_1_0 := by
  show StableHlo.after hostOps0 (W0 m ρ c) (Proc.devRef .tc main_v0) = _
  after_results

theorem V1_v1 (c : Dev nD) : (V1 m ρ c main_v1 : Vec Ideal S16x256 .f32)
    = transpose S16x256 [1, 0] (argW2 m c) transposes_S256x16_S16x256_1_0 := by
  show StableHlo.after hostOps0 (W0 m ρ c) (Proc.devRef .tc main_v1) = _
  after_results

theorem V1_v2 (c : Dev nD) : (V1 m ρ c main_v2 : Vec Ideal S7x7x16 .f32)
    = transpose S7x7x16 [1, 2, 0] (argD m c) transposes_S16x7x7_S7x7x16_1_2_0 := by
  show StableHlo.after hostOps0 (W0 m ρ c) (Proc.devRef .tc main_v2) = _
  after_results

/-! ## The windows' index maps, decided over the grids -/

/-- A grid point of the first region as an image number. -/
def pt0 (t : Fin cfg0.N) : Fin 32 := Fin.cast N_0 t
/-- A grid point of the second region as an image number. -/
def pt1 (t : Fin cfg1.N) : Fin 32 := Fin.cast N_1 t

theorem idx0 : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

theorem idx1 : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 3) = t.val ∧ win1_1.index t (1 : Fin 3) = 0 ∧ win1_1.index t (2 : Fin 3) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

/-! ## Blocks read off the arrays a region finds (`V`) -/

section Blocks

variable (V : (c : Dev nD) → (b : Ref sig .tc) → Buf (Elt Ideal) ((c : Thread nD τ).loc b))

/-- First region, image window: the block of point `t` is image `t`. -/
theorem blk0_0 (c : Dev nD) (t : Fin cfg0.N) (ch : Fin 256) (h w : Fin 56) :
    iblk0 V c 0 t (ix4 (0 : Fin 1) ch h w) = (V c main_arg0 : Vec Ideal S32x256x56x56 .f32) (ix4 (pt0 t) ch h w) := by
  obtain ⟨e0, e1, e2, e3, -⟩ := idx0 t
  show (V c main_arg0 : Vec Ideal S32x256x56x56 .f32) (((cfg0.win 0).blk t).view.emb (ix4 (0 : Fin 1) ch h w)) = _
  refine congrArg _ (funext fun a => Fin.ext ?_)
  match a with
  | ⟨0, _⟩ => show win0_0.index t (0 : Fin 4) * 1 + 1 * 0 = t.val; omega
  | ⟨1, _⟩ => show win0_0.index t (1 : Fin 4) * 256 + 1 * ch.val = ch.val; omega
  | ⟨2, _⟩ => show win0_0.index t (2 : Fin 4) * 56 + 1 * h.val = h.val; omega
  | ⟨3, _⟩ => show win0_0.index t (3 : Fin 4) * 56 + 1 * w.val = w.val; omega

/-- First region, first-layer window: the whole array at every point. -/
theorem blk0_1 (c : Dev nD) (t : Fin cfg0.N) (k : Fin 256) (r : Fin 16) :
    iblk0 V c 1 t (ix2 k r) = (V c main_v0 : Vec Ideal S256x16 .f32) (ix2 k r) := by
  obtain ⟨-, -, -, -, e0, e1, -⟩ := idx0 t
  show (V c main_v0 : Vec Ideal S256x16 .f32) (((cfg0.win 1).blk t).view.emb (ix2 k r)) = _
  refine congrArg _ (funext fun a => Fin.ext ?_)
  match a with
  | ⟨0, _⟩ => show win0_1.index t (0 : Fin 2) * 256 + 1 * k.val = k.val; omega
  | ⟨1, _⟩ => show win0_1.index t (1 : Fin 2) * 16 + 1 * r.val = r.val; omega

/-- First region, second-layer window: the whole array at every point. -/
theorem blk0_2 (c : Dev nD) (t : Fin cfg0.N) (r : Fin 16) (ch : Fin 256) :
    iblk0 V c 2 t (ix2 r ch) = (V c main_v1 : Vec Ideal S16x256 .f32) (ix2 r ch) := by
  obtain ⟨-, -, -, -, -, -, e0, e1, -⟩ := idx0 t
  show (V c main_v1 : Vec Ideal S16x256 .f32) (((cfg0.win 2).blk t).view.emb (ix2 r ch)) = _
  refine congrArg _ (funext fun a => Fin.ext ?_)
  match a with
  | ⟨0, _⟩ => show win0_2.index t (0 : Fin 2) * 16 + 1 * r.val = r.val; omega
  | ⟨1, _⟩ => show win0_2.index t (1 : Fin 2) * 256 + 1 * ch.val = ch.val; omega

/-- First region, filter window: the whole array at every point. -/
theorem blk0_3 (c : Dev nD) (t : Fin cfg0.N) (p q : Fin 7) (f : Fin 16) :
    iblk0 V c 3 t (ix3 p q f) = (V c main_v2 : Vec Ideal S7x7x16 .f32) (ix3 p q f) := by
  obtain ⟨-, -, -, -, -, -, -, -, e0, e1, e2, -⟩ := idx0 t
  show (V c main_v2 : Vec Ideal S7x7x16 .f32) (((cfg0.win 3).blk t).view.emb (ix3 p q f)) = _
  refine congrArg _ (funext fun a => Fin.ext ?_)
  match a with
  | ⟨0, _⟩ => show win0_3.index t (0 : Fin 3) * 7 + 1 * p.val = p.val; omega
  | ⟨1, _⟩ => show win0_3.index t (1 : Fin 3) * 7 + 1 * q.val = q.val; omega
  | ⟨2, _⟩ => show win0_3.index t (2 : Fin 3) * 16 + 1 * f.val = f.val; omega

/-- First region, gate window: entry `ch` of the block of point `t` sits at `(t, 0, ch)` of the gate array. -/
theorem emb0_4 (t : Fin cfg0.N) (ch : Fin 256) :
    ((cfg0.win 4).blk t).view.emb (ix3 (0 : Fin 1) (0 : Fin 1) ch) = (ix3 (pt0 t) (0 : Fin 1) ch : S32x1x256.Idx) := by
  obtain ⟨-, -, -, -, -, -, -, -, -, -, -, e0, e1, e2⟩ := idx0 t
  refine funext fun a => Fin.ext ?_
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 256 + 1 * ch.val = ch.val; omega

/-- Second region, image window. -/
theorem blk1_0 (c : Dev nD) (t : Fin cfg1.N) (ch : Fin 256) (h w : Fin 56) :
    iblk1 V c 0 t (ix4 (0 : Fin 1) ch h w) = (V c main_arg0 : Vec Ideal S32x256x56x56 .f32) (ix4 (pt1 t) ch h w) := by
  obtain ⟨e0, e1, e2, e3, -⟩ := idx1 t
  show (V c main_arg0 : Vec Ideal S32x256x56x56 .f32) (((cfg1.win 0).blk t).view.emb (ix4 (0 : Fin 1) ch h w)) = _
  refine congrArg _ (funext fun a => Fin.ext ?_)
  match a with
  | ⟨0, _⟩ => show win1_0.index t (0 : Fin 4) * 1 + 1 * 0 = t.val; omega
  | ⟨1, _⟩ => show win1_0.index t (1 : Fin 4) * 256 + 1 * ch.val = ch.val; omega
  | ⟨2, _⟩ => show win1_0.index t (2 : Fin 4) * 56 + 1 * h.val = h.val; omega
  | ⟨3, _⟩ => show win1_0.index t (3 : Fin 4) * 56 + 1 * w.val = w.val; omega

/-- Second region, gate window. -/
theorem blk1_1 (c : Dev nD) (t : Fin cfg1.N) (ch : Fin 256) :
    iblk1 V c 1 t (ix3 (0 : Fin 1) (0 : Fin 1) ch) = (V c main_v3 : Vec Ideal S32x1x256 .f32) (ix3 (pt1 t) (0 : Fin 1) ch) := by
  obtain ⟨-, -, -, -, e0, e1, e2, -⟩ := idx1 t
  show (V c main_v3 : Vec Ideal S32x1x256 .f32) (((cfg1.win 1).blk t).view.emb (ix3 (0 : Fin 1) (0 : Fin 1) ch)) = _
  refine congrArg _ (funext fun a => Fin.ext ?_)
  match a with
  | ⟨0, _⟩ => show win1_1.index t (0 : Fin 3) * 1 + 1 * 0 = t.val; omega
  | ⟨1, _⟩ => show win1_1.index t (1 : Fin 3) * 1 + 1 * 0 = 0; omega
  | ⟨2, _⟩ => show win1_1.index t (2 : Fin 3) * 256 + 1 * ch.val = ch.val; omega

/-- Second region, result window: entry `(0, ch, h, w)` of the block of point `t` sits at `(t, ch, h, w)`. -/
theorem emb1_2 (t : Fin cfg1.N) (ch : Fin 256) (h w : Fin 56) :
    ((cfg1.win 2).blk t).view.emb (ix4 (0 : Fin 1) ch h w) = (ix4 (pt1 t) ch h w : S32x256x56x56.Idx) := by
  obtain ⟨-, -, -, -, -, -, -, e0, e1, e2, e3⟩ := idx1 t
  refine funext fun a => Fin.ext ?_
  match a with
  | ⟨0, _⟩ => show win1_2.index t (0 : Fin 4) * 1 + 1 * 0 = t.val; omega
  | ⟨1, _⟩ => show win1_2.index t (1 : Fin 4) * 256 + 1 * ch.val = ch.val; omega
  | ⟨2, _⟩ => show win1_2.index t (2 : Fin 4) * 56 + 1 * h.val = h.val; omega
  | ⟨3, _⟩ => show win1_2.index t (3 : Fin 4) * 56 + 1 * w.val = w.val; omega

end Blocks

/-! ## The output blocks fill their arrays -/

/-- Every index of the gate array is in the block of the point named by its leading coordinate. -/
theorem cover0_4 (i : S32x1x256.Idx) :
    ∃ t : Fin cfg0.N, (cfg0.win 4).flush t = true ∧ i ∈ ((cfg0.win 4).blk t).view.set := by
  have hi0 : (i 0).val < 32 := (i 0).isLt
  have hi1 : (i 1).val < 1 := (i 1).isLt
  have hi2 : (i 2).val < 256 := (i 2).isLt
  let t : Fin cfg0.N := Fin.cast N_0.symm (⟨(i 0).val, hi0⟩ : Fin 32)
  refine ⟨t, flush0_4 t, ?_⟩
  obtain ⟨-, -, -, -, -, -, -, -, -, -, -, e0, e1, e2⟩ := idx0 t
  show i ∈ ((View.whole main_v3).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; have : t.val = (i 0).val := rfl; omega
  | ⟨1, _⟩ => show win0_4.index t (1 : Fin 3) * 1 ≤ (i 1).val ∧ (i 1).val < win0_4.index t (1 : Fin 3) * 1 + 1; omega
  | ⟨2, _⟩ => show win0_4.index t (2 : Fin 3) * 256 ≤ (i 2).val ∧ (i 2).val < win0_4.index t (2 : Fin 3) * 256 + 256; omega

/-- Every index of the result array is in the block of the point named by its leading coordinate. -/
theorem cover1_2 (i : S32x256x56x56.Idx) :
    ∃ t : Fin cfg1.N, (cfg1.win 2).flush t = true ∧ i ∈ ((cfg1.win 2).blk t).view.set := by
  have hi0 : (i 0).val < 32 := (i 0).isLt
  have hi1 : (i 1).val < 256 := (i 1).isLt
  have hi2 : (i 2).val < 56 := (i 2).isLt
  have hi3 : (i 3).val < 56 := (i 3).isLt
  let t : Fin cfg1.N := Fin.cast N_1.symm (⟨(i 0).val, hi0⟩ : Fin 32)
  refine ⟨t, flush1_2 t, ?_⟩
  obtain ⟨-, -, -, -, -, -, -, e0, e1, e2, e3⟩ := idx1 t
  show i ∈ ((View.whole main_v4).slice (win1_2.rect t)).set
  rw [View.set_slice_whole, Rect.mem_set_unit]
  intro a
  match a with
  | ⟨0, _⟩ => show win1_2.index t (0 : Fin 4) * 1 ≤ (i 0).val ∧ (i 0).val < win1_2.index t (0 : Fin 4) * 1 + 1; have : t.val = (i 0).val := rfl; omega
  | ⟨1, _⟩ => show win1_2.index t (1 : Fin 4) * 256 ≤ (i 1).val ∧ (i 1).val < win1_2.index t (1 : Fin 4) * 256 + 256; omega
  | ⟨2, _⟩ => show win1_2.index t (2 : Fin 4) * 56 ≤ (i 2).val ∧ (i 2).val < win1_2.index t (2 : Fin 4) * 56 + 56; omega
  | ⟨3, _⟩ => show win1_2.index t (3 : Fin 4) * 56 ≤ (i 3).val ∧ (i 3).val < win1_2.index t (3 : Fin 4) * 56 + 56; omega

end Cert.KernelArrays

end
-- ==== Proof.KTerms.lean ====
/-
  The first kernel's arithmetic, grouped by what it computes.

  The body reads one image and builds, channel by channel, the 7 x 7 grid of bin means as a 256 x 49 array (the
  column of bin (i, j) is 7 i + j); turns it over to 49 x 256, reads that as 7 x 7 x 256, multiplies it with the
  filters (7 x 7 x 16) into the product array 7 x 7 x 16 x 256; takes over the first two axes the mean, the greatest
  and the least entry and averages each over the 16 frequencies (three rows of 256); sends each row through the
  two-layer map (256 -> 16, positive part, 16 -> 256); adds the three results and applies the logistic function.
  Each group is named here as a function of what it reads, and the body's stored value is these functions composed.
-/
import proofs.«424325_j292057776143_3_alg».proof.Proof.Gen.KernelIdeal.Skeleton
import proofs.«424325_j292057776143_3_alg».proof.Proof.Gen.KernelIdeal.Frame
import Idealize.ShloMosaic.PureOps.Ideal

noncomputable section

namespace Cert.KTerms

open Idealize.ShloMosaic Cert.KernelIdeal Cert.KernelIdeal.Gen

/-- The 7 x 7 bins side by side: six rows that arrive as 256 x 7 arrays, the last row as its seven columns (the last
    of them still to be divided). -/
def pooledOf (r0 r1 r2 r3 r4 r5 : FVec Ideal S256x7 .f32) (k0 k1 k2 k3 k4 k5 num den : FVec Ideal S256x1 .f32) :
    FVec Ideal S256x49 .f32 :=
  concatenate S256x49 1 [⟨S256x7, r0⟩, ⟨S256x7, r1⟩, ⟨S256x7, r2⟩, ⟨S256x7, r3⟩, ⟨S256x7, r4⟩, ⟨S256x7, r5⟩,
    ⟨S256x7, concatenate S256x7 1 [⟨S256x1, k0⟩, ⟨S256x1, k1⟩, ⟨S256x1, k2⟩, ⟨S256x1, k3⟩, ⟨S256x1, k4⟩, ⟨S256x1, k5⟩,
      ⟨S256x1, divf num den⟩] concatenates_S256x1_S256x1_S256x1_S256x1_S256x1_S256x1_S256x1_S256x7_d1⟩]
    concatenates_S256x7_S256x7_S256x7_S256x7_S256x7_S256x7_S256x7_S256x49_d1

/-- The product array: the pooled grid (turned over and read as 7 x 7 x 256) times the filters (7 x 7 x 16). -/
def prodOf (pl : FVec Ideal S256x49 .f32) (flt : Vec Ideal S7x7x16 .f32) : FVec Ideal S7x7x16x256 .f32 :=
  mulf
    (broadcastTo S7x7x16x256 (shapeCast S7x7x1x256 (shapeCast S7x7x256 (transpose S49x256 [1, 0] pl
      transposes_S256x49_p1_0_S49x256) shapeCasts_S49x256_S7x7x256) shapeCasts_S7x7x256_S7x7x1x256)
      broadcasts_S7x7x1x256_S7x7x16x256)
    (broadcastTo S7x7x16x256 (shapeCast S7x7x16x1 (shapeCast S7x7x16 flt shapeCasts_S7x7x16_S7x7x16)
      shapeCasts_S7x7x16_S7x7x16x1) broadcasts_S7x7x16x1_S7x7x16x256)

/-- Mean over the grid, then mean over the frequencies. -/
def avgOf (pr : FVec Ideal S7x7x16x256 .f32) : FVec Ideal S1x256 .f32 :=
  divf (shapeCast S1x256 (multiReduction .add [0] S256
      (divf (multiReduction .add [0, 1] S16x256 pr 0x00000000#32 reduces_S7x7x16x256_S16x256 (.inl rfl) rfl)
        (broadcast S16x256 (Scalar.ofBits .f32 0x42440000#32)))
      0x00000000#32 reduces_S16x256_S256 (.inl rfl) rfl) shapeCasts_S256_S1x256)
    (broadcast S1x256 (Scalar.ofBits .f32 0x41800000#32))

/-- Greatest entry of the grid, then mean over the frequencies. -/
def maxOf (pr : FVec Ideal S7x7x16x256 .f32) : FVec Ideal S1x256 .f32 :=
  divf (shapeCast S1x256 (multiReduction .add [0] S256
      (multiReduction .maximumf [0, 1] S16x256 pr 0xFF800000#32 reduces_S7x7x16x256_S16x256 (.inl rfl) rfl)
      0x00000000#32 reduces_S16x256_S256 (.inl rfl) rfl) shapeCasts_S256_S1x256)
    (broadcast S1x256 (Scalar.ofBits .f32 0x41800000#32))

/-- Least entry of the grid, then mean over the frequencies. -/
def minOf (pr : FVec Ideal S7x7x16x256 .f32) : FVec Ideal S1x256 .f32 :=
  divf (shapeCast S1x256 (multiReduction .add [0] S256
      (multiReduction .minimumf [0, 1] S16x256 pr 0x7F800000#32 reduces_S7x7x16x256_S16x256 (.inl rfl) rfl)
      0x00000000#32 reduces_S16x256_S256 (.inl rfl) rfl) shapeCasts_S256_S1x256)
    (broadcast S1x256 (Scalar.ofBits .f32 0x41800000#32))

/-- The first layer and the positive part. -/
def hiddenOf (v : FVec Ideal S1x256 .f32) (wa : FVec Ideal S256x16 .bf16) : FVec Ideal S1x16 .bf16 :=
  truncf .bf16 (maximumf (matmul dot_S1x256_S256x16_S1x16_1_0_0_1_n_n none (truncf .bf16 v bitsLt_bf16_f32) wa
    (constant S1x16 .f32 0x00000000#32)) (broadcast S1x16 (Scalar.ofBits .f32 0x00000000#32))) bitsLt_bf16_f32

/-- The second layer. -/
def mixOf (h : FVec Ideal S1x16 .bf16) (wb : FVec Ideal S16x256 .bf16) : FVec Ideal S1x256 .f32 :=
  matmul dot_S1x16_S16x256_S1x256_1_0_0_1_n_n none h wb (constant S1x256 .f32 0x00000000#32)

/-- The three mixed rows added, through the logistic function, as the stored 1 x 1 x 256 block. -/
def gateOf (hAvg : FVec Ideal S1x16 .bf16) (vMax vMin : FVec Ideal S1x256 .f32) (wa : FVec Ideal S256x16 .bf16)
    (wb : FVec Ideal S16x256 .bf16) : FVec Ideal S1x1x256 .f32 :=
  shapeCast S1x1x256 (logistic (addf (addf (mixOf hAvg wb) (mixOf (hiddenOf vMax wa) wb)) (mixOf (hiddenOf vMin wa) wb)))
    shapeCasts_S1x256_S1x1x256

section Payloads

variable (r0 r1 r2 r3 r4 r5 : FVec Ideal S256x7 .f32) (k0 k1 k2 k3 k4 k5 num den : FVec Ideal S256x1 .f32)
  (flt : Vec Ideal S7x7x16 .f32)

theorem pay51_eq : k0_pay51 r0 r1 r2 r3 r4 r5 k0 k1 k2 k3 k4 k5 num den flt
    = prodOf (pooledOf r0 r1 r2 r3 r4 r5 k0 k1 k2 k3 k4 k5 num den) flt := rfl

theorem pay52_eq : k0_pay52 r0 r1 r2 r3 r4 r5 k0 k1 k2 k3 k4 k5 num den flt
    = maxOf (k0_pay51 r0 r1 r2 r3 r4 r5 k0 k1 k2 k3 k4 k5 num den flt) := rfl

theorem pay53_eq : k0_pay53 r0 r1 r2 r3 r4 r5 k0 k1 k2 k3 k4 k5 num den flt
    = minOf (k0_pay51 r0 r1 r2 r3 r4 r5 k0 k1 k2 k3 k4 k5 num den flt) := rfl

theorem pay56_eq (w : Vec Ideal S256x16 .f32) : k0_pay56 r0 r1 r2 r3 r4 r5 k0 k1 k2 k3 k4 k5 num den flt w
    = hiddenOf (avgOf (k0_pay51 r0 r1 r2 r3 r4 r5 k0 k1 k2 k3 k4 k5 num den flt)) (k0_pay54 w) := rfl

theorem pay1_eq (vMax vMin : FVec Ideal S1x256 .f32) (wa : FVec Ideal S256x16 .bf16) (wb : FVec Ideal S16x256 .bf16)
    (hAvg : FVec Ideal S1x16 .bf16) :
    k0_pay1 vMax vMin wa wb hAvg (constant S1x256 .f32 0x00000000#32) = gateOf hAvg vMax vMin wa wb := rfl

end Payloads

/-- The image as the body first reads it: the 1 x 256 x 56 x 56 block with its leading axis dropped. -/
def img (x0 : Vec Ideal S1x256x56x56 .f32) : FVec Ideal S256x56x56 .f32 := k0_pay2 (View.ld x0 r0_0)

/-- The pooled array of the image `x0`, as the body builds it. -/
def pooledArr (x0 : Vec Ideal S1x256x56x56 .f32) : FVec Ideal S256x49 .f32 :=
  pooledOf
    (k0_pay9 (img x0) (k0_pay3 (View.ld x0 r0_0)) (k0_pay4 (View.ld x0 r0_0)) (k0_pay5 (View.ld x0 r0_0))
      (k0_pay6 (View.ld x0 r0_0)) (k0_pay7 (View.ld x0 r0_0)) k0_pay8)
    (k0_pay13 (img x0) (k0_pay10 (img x0)) (k0_pay11 (img x0)) (k0_pay12 (img x0)) (Scalar.ofBits .f32 0x41000000#32))
    (k0_pay21 (img x0) (k0_pay15 (k0_pay14 (img x0))) (k0_pay16 (img x0)) (k0_pay17 (img x0)) (k0_pay18 (img x0))
      (k0_pay19 (img x0)) (k0_pay20 (img x0)))
    (k0_pay26 (img x0) (k0_pay22 (img x0)) (k0_pay23 (img x0)) (k0_pay24 (img x0)) (k0_pay25 (img x0)))
    (k0_pay35 (k0_pay27 (img x0)) (k0_pay29 (k0_pay28 (img x0))) (k0_pay30 (img x0)) (k0_pay31 (img x0))
      (k0_pay32 (img x0)) (k0_pay33 (img x0)) (k0_pay34 (img x0)))
    (k0_pay40 (img x0) (k0_pay36 (img x0)) (k0_pay37 (img x0)) (k0_pay38 (img x0)) (k0_pay39 (img x0)))
    (k0_pay41 (img x0)) (k0_pay44 (k0_pay42 (img x0)) k0_pay43) (k0_pay45 (img x0)) (k0_pay46 (img x0))
    (k0_pay47 (img x0)) (k0_pay48 (img x0)) (k0_pay49 (img x0)) k0_pay50

/-- The product array of the image `x0` and the filters `x3`. -/
def prodArr (x0 : Vec Ideal S1x256x56x56 .f32) (x3 : Vec Ideal S7x7x16 .f32) : FVec Ideal S7x7x16x256 .f32 :=
  prodOf (pooledArr x0) (View.ld x3 r0_1)

/-- What the body stores, as the groups composed. -/
theorem out0_4_eq (x0 : Vec Ideal S1x256x56x56 .f32) (x1 : Vec Ideal S256x16 .f32) (x2 : Vec Ideal S16x256 .f32)
    (x3 : Vec Ideal S7x7x16 .f32) :
    out0_4 x0 x1 x2 x3 = View.canon [⟨r0_4,
      gateOf (hiddenOf (avgOf (prodArr x0 x3)) (k0_pay54 (View.ld x1 r0_2))) (maxOf (prodArr x0 x3)) (minOf (prodArr x0 x3))
        (k0_pay54 (View.ld x1 r0_2)) (k0_pay55 (View.ld x2 r0_3))⟩] := rfl

end Cert.KTerms

end
-- ==== Proof.Spec.lean ====
/-
  The function both programs compute, written once over plain coordinates.

  For one image (256 channels of 56 x 56) the channel gate is built in four steps.
    * POOL: each channel is cut into a 7 x 7 grid of 8 x 8 bins and every bin is replaced by its mean.
    * WEIGH: for each of 16 frequencies the 7 x 7 pooled grid is multiplied entry by entry with that frequency's
      7 x 7 filter; over the grid one takes the mean, the greatest and the least entry, and each of these three is
      then averaged over the 16 frequencies.  This gives three numbers per channel.
    * MIX: each of the three length-256 vectors goes through the same two-layer map (256 -> 16, the positive part,
      16 -> 256), and the three results are added.
    * SQUASH: the logistic function 1 / (1 + e^(-t)).
  The result array is the image times its channel's gate.

  One algebraic law is proved here as well: the mean of an 8 x 8 bin taken in one step (the sum of the 64 entries
  divided by 64) is the mean of the eight row means (each a sum of eight entries divided by 8).  Division by 8 and by
  64 are multiplications by positive real numbers, and such a multiplication distributes over sums of extended
  reals whatever infinities occur, so nothing is asked of the entries.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Position `p` of bin `i` along an axis of length 56: the coordinate `8 i + p`. -/
def at8 (i : Fin 7) (p : Fin 8) : Fin 56 := ⟨8 * i.val + p.val, by omega⟩

/-- The four numbers the programs spell as f32 patterns: 64, 49, 16 and 0. -/
abbrev c64 : EReal := Ideal.ofBits .f32 0x42800000#32
abbrev c49 : EReal := Ideal.ofBits .f32 0x42440000#32
abbrev c16 : EReal := Ideal.ofBits .f32 0x41800000#32
abbrev c8 : EReal := Ideal.ofBits .f32 0x41000000#32

section Gate

/- One image `xb` (channel, row, column); the first layer `a` (hidden unit, channel); the second layer `bw` (channel,
   hidden unit); the filters `d` (frequency, bin row, bin column). -/
variable (xb : Fin 256 → Fin 56 → Fin 56 → EReal) (a : Fin 16 → Fin 256 → EReal) (bw : Fin 256 → Fin 16 → EReal)
  (d : Fin 16 → Fin 7 → Fin 7 → EReal)

/-- The mean of bin `(i, j)` of channel `c`. -/
def pool (c : Fin 256) (i j : Fin 7) : EReal :=
  Ideal.div (∑ p : Fin 8, ∑ q : Fin 8, xb c (at8 i p) (at8 j q)) c64

/-- The pooled entry weighed by frequency `f`'s filter. -/
def weighed (c : Fin 256) (f : Fin 16) (ij : Fin 7 × Fin 7) : EReal := pool xb c ij.1 ij.2 * d f ij.1 ij.2

/-- Mean over the grid, then mean over the frequencies. -/
def featAvg (c : Fin 256) : EReal :=
  Ideal.div (∑ f : Fin 16, Ideal.div (∑ ij : Fin 7 × Fin 7, weighed xb d c f ij) c49) c16

/-- Greatest entry of the grid, then mean over the frequencies. -/
def featMax (c : Fin 256) : EReal :=
  Ideal.div (∑ f : Fin 16, (Finset.univ : Finset (Fin 7 × Fin 7)).fold max ⊥ (weighed xb d c f)) c16

/-- Least entry of the grid, then mean over the frequencies. -/
def featMin (c : Fin 256) : EReal :=
  Ideal.div (∑ f : Fin 16, (Finset.univ : Finset (Fin 7 × Fin 7)).fold min ⊤ (weighed xb d c f)) c16

/-- Hidden unit `r` of the two-layer map at the vector `v`: the positive part of `v · a r`. -/
def hidden (v : Fin 256 → EReal) (r : Fin 16) : EReal := max (∑ k : Fin 256, v k * a r k) 0

/-- The two-layer map at `v`, channel `c`. -/
def mix (v : Fin 256 → EReal) (c : Fin 256) : EReal := ∑ r : Fin 16, hidden a v r * bw c r

/-- The gate of channel `c`. -/
def gate (c : Fin 256) : EReal :=
  Ideal.logistic (mix a bw (featAvg xb d) c + mix a bw (featMax xb d) c + mix a bw (featMin xb d) c)

end Gate

/-- The whole result: entry `(b, c, h, w)` of `x` times the gate of channel `c` of image `b`.  The weights arrive as
    `w1` (hidden unit, channel) and `w2` (channel, hidden unit), the filters as (frequency, bin row, bin column). -/
def out (x : (⟨4, ![32, 256, 56, 56]⟩ : Shape).Idx → EReal) (w1 : (⟨2, ![16, 256]⟩ : Shape).Idx → EReal)
    (w2 : (⟨2, ![256, 16]⟩ : Shape).Idx → EReal) (dct : (⟨3, ![16, 7, 7]⟩ : Shape).Idx → EReal) :
    (⟨4, ![32, 256, 56, 56]⟩ : Shape).Idx → EReal := fun i =>
  x i * gate (fun c h w => x (ix4 (i 0 : Fin 32) c h w)) (fun r k => w1 (ix2 r k)) (fun c r => w2 (ix2 c r))
    (fun f p q => dct (ix3 f p q)) (i 1 : Fin 256)

/-! ## The numbers the patterns denote

  Every pattern the proof has to evaluate is evaluated here, once. -/

/-- The pattern `0x41000000` is the number 8. -/
theorem c8_eq : c8 = ((8 : ℝ) : EReal) := by
  simp [Ideal.ofBits, Ideal.ieee, -EReal.coe_mul]; norm_num

/-- The pattern `0x42800000` is the number 64. -/
theorem c64_eq : c64 = ((64 : ℝ) : EReal) := by
  simp [Ideal.ofBits, Ideal.ieee, -EReal.coe_mul]; norm_num

/-- The pattern `0x3F800000` is the number 1. -/
theorem one_eq : Ideal.ofBits .f32 0x3F800000#32 = 1 := by
  simp [Ideal.ofBits, Ideal.ieee, -EReal.coe_mul]; norm_num

/-- The pattern `0xFF800000` is −∞, the bottom of the extended reals. -/
theorem neg_inf_eq : Ideal.ofBits .f32 0xFF800000#32 = ⊥ := by
  simp [Ideal.ofBits, Ideal.ieee]

/-- The pattern `0x7F800000` is +∞, the top of the extended reals. -/
theorem pos_inf_eq : Ideal.ofBits .f32 0x7F800000#32 = ⊤ := by
  simp [Ideal.ofBits, Ideal.ieee]

/-! ## The mean of a bin, in one step or row by row -/

/-- Multiplying a finite sum of extended reals by a nonnegative real multiplies every term: such a factor keeps +∞
    and −∞ where they are, so the convention for (+∞) + (−∞) is met the same way on both sides. -/
theorem sum_mul_real {ι : Type} (s : Finset ι) (g : ι → EReal) (r : ℝ) (hr : 0 ≤ r) :
    (∑ i ∈ s, g i) * (r : EReal) = ∑ i ∈ s, g i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- The mean of the eight row means of an 8 x 8 bin is the mean of its 64 entries: dividing by 8 twice is multiplying
    by 1/8 twice, the inner factor moves out of the outer sum, and (1/8) (1/8) = 1/64. -/
theorem pool_rows (f : Fin 8 → Fin 8 → EReal) :
    Ideal.div (∑ p : Fin 8, Ideal.div (∑ q : Fin 8, f p q) c8) c8 = Ideal.div (∑ p : Fin 8, ∑ q : Fin 8, f p q) c64 := by
  rw [c8_eq, c64_eq]
  simp only [Ideal.div_coe (by norm_num : (8 : ℝ) ≠ 0), Ideal.div_coe (by norm_num : (64 : ℝ) ≠ 0)]
  rw [← sum_mul_real _ _ _ (by norm_num), mul_assoc, ← EReal.coe_mul]
  norm_num

end Cert.Spec

end
-- ==== Proof.KRows.lean ====
/-
  The pooled array, entry by entry: column 7 i + j of channel c holds the mean of bin (i, j) of that channel.

  The body builds the array bin by bin.  For bin (i, j) it takes the 8 x 8 window of every channel at rows 8 i .. 8 i + 7
  and columns 8 j .. 8 j + 7, sums it over its columns, divides each of the eight sums by eight, sums these over the
  rows and divides by eight again.  Seven such 256 x 1 columns side by side make a row of the grid (256 x 7), and the
  seven rows side by side make the 256 x 49 array.  Read at an index, a sum over one axis is a finite sum, a window is
  the array at shifted coordinates, a change of shape keeps the row-major position, and arrays laid side by side are
  read in the piece that holds the column.  Dividing twice by eight is dividing once by sixty-four.
-/
import proofs.«424325_j292057776143_3_alg».proof.Proof.KTerms
import proofs.«424325_j292057776143_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KRows

open Idealize.ShloMosaic Idealize.ShloMosaic.ValueIdx Cert.KernelIdeal Cert.KernelIdeal.Gen

/-! ### The image -/

/-- The four zero offsets of the whole-block load, as the constant function. -/
theorem hz4 : (![0, 0, 0, 0] : Fin 4 → Nat) = fun _ => 0 := funext fun a => by fin_cases a <;> rfl

/-- The image with its leading axis of length one dropped. -/
theorem img_apply (x0 : Vec Ideal S1x256x56x56 .f32) (c : Fin 256) (h w : Fin 56) :
    KTerms.img x0 (ix3 c h w) = x0 (ix4 (0 : Fin 1) c h w) := by
  unfold KTerms.img
  -- the load through the whole block at zero offsets is the block itself
  rw [View.ld_unit_zero (S := S1x256x56x56) hz4]
  -- (0, c, h, w) and (c, h, w) sit at the same row-major position
  refine shapeCast_apply x0 shapeCasts_S1x256x56x56_S256x56x56 (ix3 c h w) (ix4 (0 : Fin 1) c h w) ?_
  rw [Shape.rowMajor_val_four, Shape.rowMajor_val_three]
  show ((0 * 256 + c.val) * 56 + h.val) * 56 + w.val = (c.val * 56 + h.val) * 56 + w.val
  omega

/-! ### One bin -/

/-- The sum over a window's columns. -/
def colSum (v : FVec Ideal S256x8x8 .f32) : FVec Ideal S256x8 .f32 :=
  multiReduction .add [2] S256x8 v 0x00000000#32 reduces_S256x8x8_S256x8 (.inl rfl) rfl

/-- Entry `(c, p)` of the column sums is the sum of row `p` of channel `c`'s window. -/
theorem colSum_apply (v : FVec Ideal S256x8x8 .f32) (c : Fin 256) (p : Fin 8) :
    colSum v (ix2 c p) = ∑ q : Fin 8, v (ix3 c p q) := by
  unfold colSum
  refine (Ideal.multiReduction_add_single v 0x00000000#32 reduces_S256x8x8_S256x8 (.inl rfl) rfl (ix2 c p)).trans ?_
  -- the index with `q` put back on the summed axis is (c, p, q)
  refine Finset.sum_congr rfl fun q _ => congrArg v ?_
  funext a
  match a with
  | ⟨0, _⟩ => rfl
  | ⟨1, _⟩ => rfl
  | ⟨2, _⟩ => rfl

/-- The column sums divided entry by entry, summed over the window's rows, stood up as a 256 x 1 column. -/
def rowSum (s den : FVec Ideal S256x8 .f32) : FVec Ideal S256x1 .f32 :=
  shapeCast S256x1 (multiReduction .add [1] S256 (divf s den) 0x00000000#32 reduces_S256x8_S256 (.inl rfl) rfl)
    shapeCasts_S256_S256x1

/-- Entry `(c, 0)` of that column is the sum over the rows of the quotients. -/
theorem rowSum_apply (s den : FVec Ideal S256x8 .f32) (c : Fin 256) :
    rowSum s den (ix2 c (0 : Fin 1)) = ∑ p : Fin 8, Ideal.div (s (ix2 c p)) (den (ix2 c p)) := by
  unfold rowSum
  -- (c, 0) of the column and (c) of the vector sit at the same row-major position
  refine (shapeCast_apply _ shapeCasts_S256_S256x1 (ix2 c (0 : Fin 1)) (ix1 c) ?_).trans ?_
  · rw [Shape.rowMajor_val_one, Shape.rowMajor_val_two]
    show c.val = c.val * 1 + 0
    omega
  refine (Ideal.multiReduction_add_single (divf s den) 0x00000000#32 reduces_S256x8_S256 (.inl rfl) rfl (ix1 c)).trans ?_
  refine Finset.sum_congr rfl fun p _ => ?_
  -- the index with `p` put back on the summed axis is (c, p)
  have e : reduces_S256x8_S256.lift (ix1 c) p = ix2 c p := by
    funext a
    match a with
    | ⟨0, _⟩ => rfl
    | ⟨1, _⟩ => rfl
  rw [e]
  rfl

/-- The number eight at every entry of a 256 x 8 array. -/
def eights8 : FVec Ideal S256x8 .f32 := broadcast S256x8 (Scalar.ofBits .f32 0x41000000#32)

/-- The number eight at every entry of a 256 x 1 column. -/
def eights1 : FVec Ideal S256x1 .f32 := broadcast S256x1 (Scalar.ofBits .f32 0x41000000#32)

/-- A bin's mean from its column sums, the way the body takes it: each column sum over eight, these summed over the
    rows, the sum over eight. -/
def binFrom (s : FVec Ideal S256x8 .f32) : FVec Ideal S256x1 .f32 := divf (rowSum s eights8) eights1

theorem binFrom_apply (s : FVec Ideal S256x8 .f32) (c : Fin 256) :
    binFrom s (ix2 c (0 : Fin 1)) = Ideal.div (∑ p : Fin 8, Ideal.div (s (ix2 c p)) Spec.c8) Spec.c8 := by
  unfold binFrom
  rw [divf_apply, rowSum_apply]
  rfl

/-- The mean of bin `(i, j)` of channel `c` of a 256 x 56 x 56 array, taken row by row. -/
def binMean (v1 : FVec Ideal S256x56x56 .f32) (c : Fin 256) (i j : Fin 7) : EReal :=
  Ideal.div (∑ p : Fin 8, Ideal.div (∑ q : Fin 8, v1 (ix3 c (Spec.at8 i p) (Spec.at8 j q))) Spec.c8) Spec.c8

/-- The 8 x 8 window at offsets `(8 i, 8 j)` holds bin `(i, j)`: its entry `(p, q)` is the array's at
    `(8 i + p, 8 j + q)`. -/
theorem slice_apply (v1 : FVec Ideal S256x56x56 .f32) (oy ox : ℕ) (hs : S256x56x56.Slices ![0, oy, ox] S256x8x8)
    (i j : Fin 7) (hy : oy = 8 * i.val) (hx : ox = 8 * j.val) (c : Fin 256) (p q : Fin 8) :
    extractStridedSlice S256x8x8 ![0, oy, ox] v1 hs (ix3 c p q) = v1 (ix3 c (Spec.at8 i p) (Spec.at8 j q)) := by
  refine extractStridedSlice_apply _ v1 hs (ix3 c p q) (ix3 c (Spec.at8 i p) (Spec.at8 j q)) fun a => ?_
  match a with
  | ⟨0, _⟩ => show c.val = 0 + c.val; omega
  | ⟨1, _⟩ => show 8 * i.val + p.val = oy + p.val; omega
  | ⟨2, _⟩ => show 8 * j.val + q.val = ox + q.val; omega

/-- A bin's column as the body builds it from the window is the bin's mean taken row by row. -/
theorem binCol_apply (v1 : FVec Ideal S256x56x56 .f32) (oy ox : ℕ) (hs : S256x56x56.Slices ![0, oy, ox] S256x8x8)
    (i j : Fin 7) (hy : oy = 8 * i.val) (hx : ox = 8 * j.val) (c : Fin 256) :
    binFrom (colSum (extractStridedSlice S256x8x8 ![0, oy, ox] v1 hs)) (ix2 c (0 : Fin 1)) = binMean v1 c i j := by
  rw [binFrom_apply]
  unfold binMean
  simp only [colSum_apply, slice_apply v1 oy ox hs i j hy hx]

/-! ### Arrays laid side by side, read at a column -/

/-- One of seven, chosen by position. -/
def sel7 {α : Type} (a0 a1 a2 a3 a4 a5 a6 : α) : Fin 7 → α
  | ⟨0, _⟩ => a0
  | ⟨1, _⟩ => a1
  | ⟨2, _⟩ => a2
  | ⟨3, _⟩ => a3
  | ⟨4, _⟩ => a4
  | ⟨5, _⟩ => a5
  | ⟨6, _⟩ => a6

/-- Seven 256 x 1 columns side by side: column `j` of the result is the `j`-th of them.  (Piece `k` starts at column
    `k`; off the joined axis the coordinates agree.) -/
theorem cat7_apply (k0 k1 k2 k3 k4 k5 k6 : FVec Ideal S256x1 .f32) (c : Fin 256) (j : Fin 7) :
    concatenate S256x7 1 [⟨S256x1, k0⟩, ⟨S256x1, k1⟩, ⟨S256x1, k2⟩, ⟨S256x1, k3⟩, ⟨S256x1, k4⟩, ⟨S256x1, k5⟩,
        ⟨S256x1, k6⟩] concatenates_S256x1_S256x1_S256x1_S256x1_S256x1_S256x1_S256x1_S256x7_d1 (ix2 c j)
      = sel7 k0 k1 k2 k3 k4 k5 k6 j (ix2 c (0 : Fin 1)) := by
  match j with
  | ⟨0, _⟩ =>
    exact concatenate_apply_piece (t := S256x7) 1 _ _ _ 0 (by show 0 < 7; omega) S256x1 k0 rfl rfl 0 rfl
      (ix2 c (0 : Fin 1)) (fun b hb => by match b with
        | ⟨0, _⟩ => rfl
        | ⟨1, _⟩ => exact absurd rfl hb) rfl
  | ⟨1, _⟩ =>
    exact concatenate_apply_piece (t := S256x7) 1 _ _ _ 1 (by show 1 < 7; omega) S256x1 k1 rfl rfl 1 rfl
      (ix2 c (0 : Fin 1)) (fun b hb => by match b with
        | ⟨0, _⟩ => rfl
        | ⟨1, _⟩ => exact absurd rfl hb) rfl
  | ⟨2, _⟩ =>
    exact concatenate_apply_piece (t := S256x7) 1 _ _ _ 2 (by show 2 < 7; omega) S256x1 k2 rfl rfl 2 rfl
      (ix2 c (0 : Fin 1)) (fun b hb => by match b with
        | ⟨0, _⟩ => rfl
        | ⟨1, _⟩ => exact absurd rfl hb) rfl
  | ⟨3, _⟩ =>
    exact concatenate_apply_piece (t := S256x7) 1 _ _ _ 3 (by show 3 < 7; omega) S256x1 k3 rfl rfl 3 rfl
      (ix2 c (0 : Fin 1)) (fun b hb => by match b with
        | ⟨0, _⟩ => rfl
        | ⟨1, _⟩ => exact absurd rfl hb) rfl
  | ⟨4, _⟩ =>
    exact concatenate_apply_piece (t := S256x7) 1 _ _ _ 4 (by show 4 < 7; omega) S256x1 k4 rfl rfl 4 rfl
      (ix2 c (0 : Fin 1)) (fun b hb => by match b with
        | ⟨0, _⟩ => rfl
        | ⟨1, _⟩ => exact absurd rfl hb) rfl
  | ⟨5, _⟩ =>
    exact concatenate_apply_piece (t := S256x7) 1 _ _ _ 5 (by show 5 < 7; omega) S256x1 k5 rfl rfl 5 rfl
      (ix2 c (0 : Fin 1)) (fun b hb => by match b with
        | ⟨0, _⟩ => rfl
        | ⟨1, _⟩ => exact absurd rfl hb) rfl
  | ⟨6, _⟩ =>
    exact concatenate_apply_piece (t := S256x7) 1 _ _ _ 6 (by show 6 < 7; omega) S256x1 k6 rfl rfl 6 rfl
      (ix2 c (0 : Fin 1)) (fun b hb => by match b with
        | ⟨0, _⟩ => rfl
        | ⟨1, _⟩ => exact absurd rfl hb) rfl

/-- Seven 256 x 7 rows side by side: column `7 i + j` of the result is column `j` of the `i`-th of them.  (Piece `i`
    starts at column `7 i`.) -/
theorem cat49_apply (r0 r1 r2 r3 r4 r5 r6 : FVec Ideal S256x7 .f32) (c : Fin 256) (i j : Fin 7) :
    concatenate S256x49 1 [⟨S256x7, r0⟩, ⟨S256x7, r1⟩, ⟨S256x7, r2⟩, ⟨S256x7, r3⟩, ⟨S256x7, r4⟩, ⟨S256x7, r5⟩,
        ⟨S256x7, r6⟩] concatenates_S256x7_S256x7_S256x7_S256x7_S256x7_S256x7_S256x7_S256x49_d1
        (ix2 c (⟨7 * i.val + j.val, by omega⟩ : Fin 49))
      = sel7 r0 r1 r2 r3 r4 r5 r6 i (ix2 c j) := by
  match i with
  | ⟨0, _⟩ =>
    exact concatenate_apply_piece (t := S256x49) 1 _ _ _ 0 (by show 0 < 7; omega) S256x7 r0 rfl rfl 0 rfl
      (ix2 c j) (fun b hb => by match b with
        | ⟨0, _⟩ => rfl
        | ⟨1, _⟩ => exact absurd rfl hb) rfl
  | ⟨1, _⟩ =>
    exact concatenate_apply_piece (t := S256x49) 1 _ _ _ 1 (by show 1 < 7; omega) S256x7 r1 rfl rfl 7 rfl
      (ix2 c j) (fun b hb => by match b with
        | ⟨0, _⟩ => rfl
        | ⟨1, _⟩ => exact absurd rfl hb) rfl
  | ⟨2, _⟩ =>
    exact concatenate_apply_piece (t := S256x49) 1 _ _ _ 2 (by show 2 < 7; omega) S256x7 r2 rfl rfl 14 rfl
      (ix2 c j) (fun b hb => by match b with
        | ⟨0, _⟩ => rfl
        | ⟨1, _⟩ => exact absurd rfl hb) rfl
  | ⟨3, _⟩ =>
    exact concatenate_apply_piece (t := S256x49) 1 _ _ _ 3 (by show 3 < 7; omega) S256x7 r3 rfl rfl 21 rfl
      (ix2 c j) (fun b hb => by match b with
        | ⟨0, _⟩ => rfl
        | ⟨1, _⟩ => exact absurd rfl hb) rfl
  | ⟨4, _⟩ =>
    exact concatenate_apply_piece (t := S256x49) 1 _ _ _ 4 (by show 4 < 7; omega) S256x7 r4 rfl rfl 28 rfl
      (ix2 c j) (fun b hb => by match b with
        | ⟨0, _⟩ => rfl
        | ⟨1, _⟩ => exact absurd rfl hb) rfl
  | ⟨5, _⟩ =>
    exact concatenate_apply_piece (t := S256x49) 1 _ _ _ 5 (by show 5 < 7; omega) S256x7 r5 rfl rfl 35 rfl
      (ix2 c j) (fun b hb => by match b with
        | ⟨0, _⟩ => rfl
        | ⟨1, _⟩ => exact absurd rfl hb) rfl
  | ⟨6, _⟩ =>
    exact concatenate_apply_piece (t := S256x49) 1 _ _ _ 6 (by show 6 < 7; omega) S256x7 r6 rfl rfl 42 rfl
      (ix2 c j) (fun b hb => by match b with
        | ⟨0, _⟩ => rfl
        | ⟨1, _⟩ => exact absurd rfl hb) rfl

/-! ### The seven rows of bins

Each row of the grid is seven bin columns side by side; every column is the same
composition: the 8 x 8 window, its column sums, these over eight summed over the rows, the sum over eight. -/

section Rows

variable (x0 : Vec Ideal S1x256x56x56 .f32) (c : Fin 256) (j : Fin 7)

theorem row0_apply :
    k0_pay9 (KTerms.img x0) (k0_pay3 (View.ld x0 r0_0)) (k0_pay4 (View.ld x0 r0_0)) (k0_pay5 (View.ld x0 r0_0))
        (k0_pay6 (View.ld x0 r0_0)) (k0_pay7 (View.ld x0 r0_0)) (k0_pay8 (F := Ideal)) (ix2 c j)
      = binMean (KTerms.img x0) c ⟨0, by omega⟩ j := by
  refine (cat7_apply _ _ _ _ _ _ _ c j).trans ?_
  match j with
  | ⟨0, _⟩ => exact binCol_apply (KTerms.img x0) 0 0 slices_S256x56x56_o0_0_0_S256x8x8 ⟨0, by omega⟩ ⟨0, by omega⟩ rfl rfl c
  | ⟨1, _⟩ => exact binCol_apply (KTerms.img x0) 0 8 slices_S256x56x56_o0_0_8_S256x8x8 ⟨0, by omega⟩ ⟨1, by omega⟩ rfl rfl c
  | ⟨2, _⟩ => exact binCol_apply (KTerms.img x0) 0 16 slices_S256x56x56_o0_0_16_S256x8x8 ⟨0, by omega⟩ ⟨2, by omega⟩ rfl rfl c
  | ⟨3, _⟩ => exact binCol_apply (KTerms.img x0) 0 24 slices_S256x56x56_o0_0_24_S256x8x8 ⟨0, by omega⟩ ⟨3, by omega⟩ rfl rfl c
  | ⟨4, _⟩ => exact binCol_apply (KTerms.img x0) 0 32 slices_S256x56x56_o0_0_32_S256x8x8 ⟨0, by omega⟩ ⟨4, by omega⟩ rfl rfl c
  | ⟨5, _⟩ => exact binCol_apply (KTerms.img x0) 0 40 slices_S256x56x56_o0_0_40_S256x8x8 ⟨0, by omega⟩ ⟨5, by omega⟩ rfl rfl c
  | ⟨6, _⟩ => exact binCol_apply (KTerms.img x0) 0 48 slices_S256x56x56_o0_0_48_S256x8x8 ⟨0, by omega⟩ ⟨6, by omega⟩ rfl rfl c

theorem row1_apply :
    k0_pay13 (KTerms.img x0) (k0_pay10 (KTerms.img x0)) (k0_pay11 (KTerms.img x0)) (k0_pay12 (KTerms.img x0))
        (Scalar.ofBits .f32 0x41000000#32) (ix2 c j)
      = binMean (KTerms.img x0) c ⟨1, by omega⟩ j := by
  refine (cat7_apply _ _ _ _ _ _ _ c j).trans ?_
  match j with
  | ⟨0, _⟩ => exact binCol_apply (KTerms.img x0) 8 0 slices_S256x56x56_o0_8_0_S256x8x8 ⟨1, by omega⟩ ⟨0, by omega⟩ rfl rfl c
  | ⟨1, _⟩ => exact binCol_apply (KTerms.img x0) 8 8 slices_S256x56x56_o0_8_8_S256x8x8 ⟨1, by omega⟩ ⟨1, by omega⟩ rfl rfl c
  | ⟨2, _⟩ => exact binCol_apply (KTerms.img x0) 8 16 slices_S256x56x56_o0_8_16_S256x8x8 ⟨1, by omega⟩ ⟨2, by omega⟩ rfl rfl c
  | ⟨3, _⟩ => exact binCol_apply (KTerms.img x0) 8 24 slices_S256x56x56_o0_8_24_S256x8x8 ⟨1, by omega⟩ ⟨3, by omega⟩ rfl rfl c
  | ⟨4, _⟩ => exact binCol_apply (KTerms.img x0) 8 32 slices_S256x56x56_o0_8_32_S256x8x8 ⟨1, by omega⟩ ⟨4, by omega⟩ rfl rfl c
  | ⟨5, _⟩ => exact binCol_apply (KTerms.img x0) 8 40 slices_S256x56x56_o0_8_40_S256x8x8 ⟨1, by omega⟩ ⟨5, by omega⟩ rfl rfl c
  | ⟨6, _⟩ => exact binCol_apply (KTerms.img x0) 8 48 slices_S256x56x56_o0_8_48_S256x8x8 ⟨1, by omega⟩ ⟨6, by omega⟩ rfl rfl c

theorem row2_apply :
    k0_pay21 (KTerms.img x0) (k0_pay15 (k0_pay14 (KTerms.img x0))) (k0_pay16 (KTerms.img x0)) (k0_pay17 (KTerms.img x0))
        (k0_pay18 (KTerms.img x0)) (k0_pay19 (KTerms.img x0)) (k0_pay20 (KTerms.img x0)) (ix2 c j)
      = binMean (KTerms.img x0) c ⟨2, by omega⟩ j := by
  refine (cat7_apply _ _ _ _ _ _ _ c j).trans ?_
  match j with
  | ⟨0, _⟩ => exact binCol_apply (KTerms.img x0) 16 0 slices_S256x56x56_o0_16_0_S256x8x8 ⟨2, by omega⟩ ⟨0, by omega⟩ rfl rfl c
  | ⟨1, _⟩ => exact binCol_apply (KTerms.img x0) 16 8 slices_S256x56x56_o0_16_8_S256x8x8 ⟨2, by omega⟩ ⟨1, by omega⟩ rfl rfl c
  | ⟨2, _⟩ => exact binCol_apply (KTerms.img x0) 16 16 slices_S256x56x56_o0_16_16_S256x8x8 ⟨2, by omega⟩ ⟨2, by omega⟩ rfl rfl c
  | ⟨3, _⟩ => exact binCol_apply (KTerms.img x0) 16 24 slices_S256x56x56_o0_16_24_S256x8x8 ⟨2, by omega⟩ ⟨3, by omega⟩ rfl rfl c
  | ⟨4, _⟩ => exact binCol_apply (KTerms.img x0) 16 32 slices_S256x56x56_o0_16_32_S256x8x8 ⟨2, by omega⟩ ⟨4, by omega⟩ rfl rfl c
  | ⟨5, _⟩ => exact binCol_apply (KTerms.img x0) 16 40 slices_S256x56x56_o0_16_40_S256x8x8 ⟨2, by omega⟩ ⟨5, by omega⟩ rfl rfl c
  | ⟨6, _⟩ => exact binCol_apply (KTerms.img x0) 16 48 slices_S256x56x56_o0_16_48_S256x8x8 ⟨2, by omega⟩ ⟨6, by omega⟩ rfl rfl c

theorem row3_apply :
    k0_pay26 (KTerms.img x0) (k0_pay22 (KTerms.img x0)) (k0_pay23 (KTerms.img x0)) (k0_pay24 (KTerms.img x0))
        (k0_pay25 (KTerms.img x0)) (ix2 c j)
      = binMean (KTerms.img x0) c ⟨3, by omega⟩ j := by
  refine (cat7_apply _ _ _ _ _ _ _ c j).trans ?_
  match j with
  | ⟨0, _⟩ => exact binCol_apply (KTerms.img x0) 24 0 slices_S256x56x56_o0_24_0_S256x8x8 ⟨3, by omega⟩ ⟨0, by omega⟩ rfl rfl c
  | ⟨1, _⟩ => exact binCol_apply (KTerms.img x0) 24 8 slices_S256x56x56_o0_24_8_S256x8x8 ⟨3, by omega⟩ ⟨1, by omega⟩ rfl rfl c
  | ⟨2, _⟩ => exact binCol_apply (KTerms.img x0) 24 16 slices_S256x56x56_o0_24_16_S256x8x8 ⟨3, by omega⟩ ⟨2, by omega⟩ rfl rfl c
  | ⟨3, _⟩ => exact binCol_apply (KTerms.img x0) 24 24 slices_S256x56x56_o0_24_24_S256x8x8 ⟨3, by omega⟩ ⟨3, by omega⟩ rfl rfl c
  | ⟨4, _⟩ => exact binCol_apply (KTerms.img x0) 24 32 slices_S256x56x56_o0_24_32_S256x8x8 ⟨3, by omega⟩ ⟨4, by omega⟩ rfl rfl c
  | ⟨5, _⟩ => exact binCol_apply (KTerms.img x0) 24 40 slices_S256x56x56_o0_24_40_S256x8x8 ⟨3, by omega⟩ ⟨5, by omega⟩ rfl rfl c
  | ⟨6, _⟩ => exact binCol_apply (KTerms.img x0) 24 48 slices_S256x56x56_o0_24_48_S256x8x8 ⟨3, by omega⟩ ⟨6, by omega⟩ rfl rfl c

theorem row4_apply :
    k0_pay35 (k0_pay27 (KTerms.img x0)) (k0_pay29 (k0_pay28 (KTerms.img x0))) (k0_pay30 (KTerms.img x0))
        (k0_pay31 (KTerms.img x0)) (k0_pay32 (KTerms.img x0)) (k0_pay33 (KTerms.img x0)) (k0_pay34 (KTerms.img x0)) (ix2 c j)
      = binMean (KTerms.img x0) c ⟨4, by omega⟩ j := by
  refine (cat7_apply _ _ _ _ _ _ _ c j).trans ?_
  match j with
  | ⟨0, _⟩ => exact binCol_apply (KTerms.img x0) 32 0 slices_S256x56x56_o0_32_0_S256x8x8 ⟨4, by omega⟩ ⟨0, by omega⟩ rfl rfl c
  | ⟨1, _⟩ => exact binCol_apply (KTerms.img x0) 32 8 slices_S256x56x56_o0_32_8_S256x8x8 ⟨4, by omega⟩ ⟨1, by omega⟩ rfl rfl c
  | ⟨2, _⟩ => exact binCol_apply (KTerms.img x0) 32 16 slices_S256x56x56_o0_32_16_S256x8x8 ⟨4, by omega⟩ ⟨2, by omega⟩ rfl rfl c
  | ⟨3, _⟩ => exact binCol_apply (KTerms.img x0) 32 24 slices_S256x56x56_o0_32_24_S256x8x8 ⟨4, by omega⟩ ⟨3, by omega⟩ rfl rfl c
  | ⟨4, _⟩ => exact binCol_apply (KTerms.img x0) 32 32 slices_S256x56x56_o0_32_32_S256x8x8 ⟨4, by omega⟩ ⟨4, by omega⟩ rfl rfl c
  | ⟨5, _⟩ => exact binCol_apply (KTerms.img x0) 32 40 slices_S256x56x56_o0_32_40_S256x8x8 ⟨4, by omega⟩ ⟨5, by omega⟩ rfl rfl c
  | ⟨6, _⟩ => exact binCol_apply (KTerms.img x0) 32 48 slices_S256x56x56_o0_32_48_S256x8x8 ⟨4, by omega⟩ ⟨6, by omega⟩ rfl rfl c

theorem row5_apply :
    k0_pay40 (KTerms.img x0) (k0_pay36 (KTerms.img x0)) (k0_pay37 (KTerms.img x0)) (k0_pay38 (KTerms.img x0))
        (k0_pay39 (KTerms.img x0)) (ix2 c j)
      = binMean (KTerms.img x0) c ⟨5, by omega⟩ j := by
  refine (cat7_apply _ _ _ _ _ _ _ c j).trans ?_
  match j with
  | ⟨0, _⟩ => exact binCol_apply (KTerms.img x0) 40 0 slices_S256x56x56_o0_40_0_S256x8x8 ⟨5, by omega⟩ ⟨0, by omega⟩ rfl rfl c
  | ⟨1, _⟩ => exact binCol_apply (KTerms.img x0) 40 8 slices_S256x56x56_o0_40_8_S256x8x8 ⟨5, by omega⟩ ⟨1, by omega⟩ rfl rfl c
  | ⟨2, _⟩ => exact binCol_apply (KTerms.img x0) 40 16 slices_S256x56x56_o0_40_16_S256x8x8 ⟨5, by omega⟩ ⟨2, by omega⟩ rfl rfl c
  | ⟨3, _⟩ => exact binCol_apply (KTerms.img x0) 40 24 slices_S256x56x56_o0_40_24_S256x8x8 ⟨5, by omega⟩ ⟨3, by omega⟩ rfl rfl c
  | ⟨4, _⟩ => exact binCol_apply (KTerms.img x0) 40 32 slices_S256x56x56_o0_40_32_S256x8x8 ⟨5, by omega⟩ ⟨4, by omega⟩ rfl rfl c
  | ⟨5, _⟩ => exact binCol_apply (KTerms.img x0) 40 40 slices_S256x56x56_o0_40_40_S256x8x8 ⟨5, by omega⟩ ⟨5, by omega⟩ rfl rfl c
  | ⟨6, _⟩ => exact binCol_apply (KTerms.img x0) 40 48 slices_S256x56x56_o0_40_48_S256x8x8 ⟨5, by omega⟩ ⟨6, by omega⟩ rfl rfl c

theorem row6_apply :
    concatenate S256x7 1 [⟨S256x1, k0_pay41 (KTerms.img x0)⟩,
        ⟨S256x1, k0_pay44 (k0_pay42 (KTerms.img x0)) (k0_pay43 (F := Ideal))⟩, ⟨S256x1, k0_pay45 (KTerms.img x0)⟩,
        ⟨S256x1, k0_pay46 (KTerms.img x0)⟩, ⟨S256x1, k0_pay47 (KTerms.img x0)⟩, ⟨S256x1, k0_pay48 (KTerms.img x0)⟩,
        ⟨S256x1, divf (k0_pay49 (KTerms.img x0)) (k0_pay50 (F := Ideal))⟩]
        concatenates_S256x1_S256x1_S256x1_S256x1_S256x1_S256x1_S256x1_S256x7_d1 (ix2 c j)
      = binMean (KTerms.img x0) c ⟨6, by omega⟩ j := by
  refine (cat7_apply _ _ _ _ _ _ _ c j).trans ?_
  match j with
  | ⟨0, _⟩ => exact binCol_apply (KTerms.img x0) 48 0 slices_S256x56x56_o0_48_0_S256x8x8 ⟨6, by omega⟩ ⟨0, by omega⟩ rfl rfl c
  | ⟨1, _⟩ => exact binCol_apply (KTerms.img x0) 48 8 slices_S256x56x56_o0_48_8_S256x8x8 ⟨6, by omega⟩ ⟨1, by omega⟩ rfl rfl c
  | ⟨2, _⟩ => exact binCol_apply (KTerms.img x0) 48 16 slices_S256x56x56_o0_48_16_S256x8x8 ⟨6, by omega⟩ ⟨2, by omega⟩ rfl rfl c
  | ⟨3, _⟩ => exact binCol_apply (KTerms.img x0) 48 24 slices_S256x56x56_o0_48_24_S256x8x8 ⟨6, by omega⟩ ⟨3, by omega⟩ rfl rfl c
  | ⟨4, _⟩ => exact binCol_apply (KTerms.img x0) 48 32 slices_S256x56x56_o0_48_32_S256x8x8 ⟨6, by omega⟩ ⟨4, by omega⟩ rfl rfl c
  | ⟨5, _⟩ => exact binCol_apply (KTerms.img x0) 48 40 slices_S256x56x56_o0_48_40_S256x8x8 ⟨6, by omega⟩ ⟨5, by omega⟩ rfl rfl c
  | ⟨6, _⟩ => exact binCol_apply (KTerms.img x0) 48 48 slices_S256x56x56_o0_48_48_S256x8x8 ⟨6, by omega⟩ ⟨6, by omega⟩ rfl rfl c

end Rows

/-- The mean taken row by row is the mean of the whole bin, and the array read is the image. -/
theorem binMean_img (x0 : Vec Ideal S1x256x56x56 .f32) (c : Fin 256) (i j : Fin 7) :
    binMean (KTerms.img x0) c i j = Spec.pool (fun c h w => x0 (ix4 (0 : Fin 1) c h w)) c i j := by
  unfold binMean Spec.pool
  rw [Spec.pool_rows fun p q => KTerms.img x0 (ix3 c (Spec.at8 i p) (Spec.at8 j q))]
  simp only [img_apply]

/-- Column `7 i + j` of channel `c` of the pooled array is the mean of bin `(i, j)`. -/
theorem pooledArr_apply (x0 : Vec Ideal S1x256x56x56 .f32) (c : Fin 256) (i j : Fin 7) :
    KTerms.pooledArr x0 (ix2 c (⟨7 * i.val + j.val, by omega⟩ : Fin 49))
      = Spec.pool (fun c h w => x0 (ix4 (0 : Fin 1) c h w)) c i j := by
  unfold KTerms.pooledArr KTerms.pooledOf
  refine (cat49_apply _ _ _ _ _ _ _ c i j).trans ?_
  refine Eq.trans ?_ (binMean_img x0 c i j)
  match i with
  | ⟨0, _⟩ => exact row0_apply x0 c j
  | ⟨1, _⟩ => exact row1_apply x0 c j
  | ⟨2, _⟩ => exact row2_apply x0 c j
  | ⟨3, _⟩ => exact row3_apply x0 c j
  | ⟨4, _⟩ => exact row4_apply x0 c j
  | ⟨5, _⟩ => exact row5_apply x0 c j
  | ⟨6, _⟩ => exact row6_apply x0 c j

end Cert.KRows

end
-- ==== Proof.KProduct.lean ====
/-
  The product array, entry by entry: at (i, j, f, c) the pooled entry of bin (i, j) of channel c times the filter
  entry (i, j) of frequency f.
-/
import proofs.«424325_j292057776143_3_alg».proof.Proof.KTerms
import proofs.«424325_j292057776143_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KProduct

open Idealize.ShloMosaic Idealize.ShloMosaic.ValueIdx Cert.KernelIdeal Cert.KernelIdeal.Gen

section Layout

variable {α : Type}

/-- Column `7 i + j` of the 49 columns: the place of bin `(i, j)`. -/
abbrev bin (i j : Fin 7) : Fin 49 := ⟨7 * i.val + j.val, by omega⟩

/-- A 7 x 7 x 1 x 256 array repeated 16 times along its unit axis reads, at `(i, j, f, c)`, the operand at
    `(i, j, 0, c)`. -/
theorem bcast_unit2_apply (x : S7x7x1x256.Idx → α) (h : S7x7x1x256.Broadcasts S7x7x16x256) (i j : Fin 7) (f : Fin 16)
    (c : Fin 256) : broadcastTo S7x7x16x256 x h (ix4 i j f c) = x (ix4 i j (0 : Fin 1) c) := by
  refine broadcastTo_apply x h (ix4 i j f c) (ix4 i j (0 : Fin 1) c) fun ax => ?_
  match ax with
  | ⟨0, _⟩ => rfl
  | ⟨1, _⟩ => rfl
  | ⟨2, _⟩ => rfl
  | ⟨3, _⟩ => rfl

/-- A 7 x 7 x 16 x 1 array repeated 256 times along its unit axis reads, at `(i, j, f, c)`, the operand at
    `(i, j, f, 0)`. -/
theorem bcast_unit3_apply (x : S7x7x16x1.Idx → α) (h : S7x7x16x1.Broadcasts S7x7x16x256) (i j : Fin 7) (f : Fin 16)
    (c : Fin 256) : broadcastTo S7x7x16x256 x h (ix4 i j f c) = x (ix4 i j f (0 : Fin 1)) := by
  refine broadcastTo_apply x h (ix4 i j f c) (ix4 i j f (0 : Fin 1)) fun ax => ?_
  match ax with
  | ⟨0, _⟩ => rfl
  | ⟨1, _⟩ => rfl
  | ⟨2, _⟩ => rfl
  | ⟨3, _⟩ => rfl

/-- A 7 x 7 x 256 array read as 7 x 7 x 1 x 256: the entry `(i, j, u, c)` is the operand's `(i, j, c)` (both sit at
    row-major place `(7 i + j) 256 + c`). -/
theorem cast_unit2_apply (x : S7x7x256.Idx → α) (h : S7x7x256.ShapeCasts S7x7x1x256) (i j : Fin 7) (u : Fin 1)
    (c : Fin 256) : shapeCast S7x7x1x256 x h (ix4 i j u c) = x (ix3 i j c) :=
  shapeCast_apply x h _ _ (by
    have hu : u.val = 0 := by omega
    rw [Shape.rowMajor_val_three, Shape.rowMajor_val_four]
    show (i.val * 7 + j.val) * 256 + c.val = ((i.val * 7 + j.val) * 1 + u.val) * 256 + c.val
    rw [hu]; omega)

/-- A 7 x 7 x 16 array read as 7 x 7 x 16 x 1: the entry `(i, j, f, u)` is the operand's `(i, j, f)`. -/
theorem cast_unit3_apply (x : S7x7x16.Idx → α) (h : S7x7x16.ShapeCasts S7x7x16x1) (i j : Fin 7) (f : Fin 16)
    (u : Fin 1) : shapeCast S7x7x16x1 x h (ix4 i j f u) = x (ix3 i j f) :=
  shapeCast_apply x h _ _ (by
    have hu : u.val = 0 := by omega
    rw [Shape.rowMajor_val_three, Shape.rowMajor_val_four]
    show (i.val * 7 + j.val) * 16 + f.val = ((i.val * 7 + j.val) * 16 + f.val) * 1 + u.val
    rw [hu]; omega)

/-- A 49 x 256 array read as 7 x 7 x 256: the entry `(i, j, c)` is the operand's row `7 i + j`, column `c`. -/
theorem cast_split_apply (x : S49x256.Idx → α) (h : S49x256.ShapeCasts S7x7x256) (i j : Fin 7) (c : Fin 256) :
    shapeCast S7x7x256 x h (ix3 i j c) = x (ix2 (bin i j) c) :=
  shapeCast_apply x h _ _ (by
    rw [Shape.rowMajor_val_two, Shape.rowMajor_val_three]
    show (7 * i.val + j.val) * 256 + c.val = (i.val * 7 + j.val) * 256 + c.val
    omega)

/-- The 256 x 49 array turned over reads, at `(r, c)`, the operand at `(c, r)`. -/
theorem turn_apply (x : S256x49.Idx → α) (h : S256x49.Transposes [1, 0] S49x256) (r : Fin 49) (c : Fin 256) :
    transpose S49x256 [1, 0] x h (ix2 r c) = x (ix2 c r) :=
  transpose_ix2_apply x h r c

end Layout

theorem prodOf_apply (pl : FVec Ideal S256x49 .f32) (flt : Vec Ideal S7x7x16 .f32) (i j : Fin 7) (f : Fin 16) (c : Fin 256) :
    KTerms.prodOf pl flt (ix4 i j f c) = pl (ix2 c (⟨7 * i.val + j.val, by omega⟩ : Fin 49)) * flt (ix3 i j f) := by
  unfold KTerms.prodOf
  rw [mulf_apply, bcast_unit2_apply, cast_unit2_apply, cast_split_apply, turn_apply, bcast_unit3_apply,
    cast_unit3_apply, shapeCast_self]

end Cert.KProduct

end
-- ==== Proof.KFeatures.lean ====
/-
  The three feature rows read at a channel: sums and extrema over the 7 x 7 grid of the product array, then the
  mean over the 16 frequencies.
-/
import proofs.«424325_j292057776143_3_alg».proof.Proof.KTerms
import proofs.«424325_j292057776143_3_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.PureOps.Reduce

noncomputable section

namespace Cert.KFeatures

open Idealize.ShloMosaic Idealize.ShloMosaic.ValueIdx Cert.KernelIdeal Cert.KernelIdeal.Gen

/-! ## The layout step and the sum over the frequencies -/

/-- A vector of 256 entries read as a 1 x 256 row: entry (0, c) is entry c (both sit at row-major position c). -/
theorem row_apply (v : FVec Ideal S256 .f32) (c : Fin 256) :
    shapeCast S1x256 v shapeCasts_S256_S1x256 (ix2 (0 : Fin 1) c) = v (ix1 c) :=
  shapeCast_apply v shapeCasts_S256_S1x256 _ _ (by
    rw [Shape.rowMajor_val_one, Shape.rowMajor_val_two]
    show c.val = 0 * 256 + c.val
    omega)

/-- The sum over the first axis of a 16 x 256 array, at channel c: the sum over the 16 frequencies of entry (f, c). -/
theorem sum_freq_apply (src : FVec Ideal S16x256 .f32) (hacc : (0x00000000#32 : BitVec 32) = 0x00000000#32)
    (c : Fin 256) :
    multiReduction .add [0] S256 src 0x00000000#32 reduces_S16x256_S256 (.inl rfl) hacc (ix1 c)
      = ∑ f : Fin 16, src (ix2 f c) := by
  refine (Ideal.multiReduction_add_single src 0x00000000#32 reduces_S16x256_S256 (.inl rfl) hacc (ix1 c)).trans ?_
  refine Finset.sum_congr rfl fun f _ => ?_
  -- the channel index with the frequency put back in front is (f, c)
  exact congrArg src (funext fun a => Fin.ext (by match a with | ⟨0, _⟩ => rfl | ⟨1, _⟩ => rfl))

/-! ## The grid under one frequency and one channel -/

/-- The grid point (i, j) placed under frequency f and channel c. -/
def cell (f : Fin 16) (c : Fin 256) (ij : Fin 7 × Fin 7) : S7x7x16x256.Idx := ix4 ij.1 ij.2 f c

/-- Different grid points give different cells: the first two coordinates of a cell are the grid point. -/
theorem cell_injective (f : Fin 16) (c : Fin 256) : Function.Injective (cell f c) := by
  intro ij ij' e
  have h0 : (cell f c ij 0).val = (cell f c ij' 0).val := by rw [e]
  have h1 : (cell f c ij 1).val = (cell f c ij' 1).val := by rw [e]
  exact Prod.ext (Fin.ext h0) (Fin.ext h1)

/-- With the two grid coordinates dropped, an index of the product array lands on (f, c) exactly when it is a cell
    of the grid under (f, c): the dropped index keeps the third and fourth coordinates. -/
theorem fiber_eq_image [DecidableEq S7x7x16x256.Idx] (f : Fin 16) (c : Fin 256)
    [DecidablePred fun m : S7x7x16x256.Idx => reduces_S7x7x16x256_S16x256.drop m = ix2 f c] :
    (Finset.univ.filter fun m : S7x7x16x256.Idx => reduces_S7x7x16x256_S16x256.drop m = ix2 f c)
      = (Finset.univ : Finset (Fin 7 × Fin 7)).image (cell f c) := by
  ext m
  simp only [Finset.mem_filter, Finset.mem_univ, true_and, Finset.mem_image]
  have h2 : (reduces_S7x7x16x256_S16x256.drop m 0 : Nat) = m 2 :=
    Shape.Reduces.drop_apply_val_of_eq reduces_S7x7x16x256_S16x256 m 0 2
  have h3 : (reduces_S7x7x16x256_S16x256.drop m 1 : Nat) = m 3 :=
    Shape.Reduces.drop_apply_val_of_eq reduces_S7x7x16x256_S16x256 m 1 3
  constructor
  · intro e
    rw [e] at h2 h3
    refine ⟨((m 0 : Fin 7), (m 1 : Fin 7)), ?_⟩
    funext b
    match b with
    | ⟨0, _⟩ => rfl
    | ⟨1, _⟩ => rfl
    | ⟨2, _⟩ => exact Fin.ext h2
    | ⟨3, _⟩ => exact Fin.ext h3
  · rintro ⟨ij, rfl⟩
    funext b
    match b with
    | ⟨0, _⟩ => rfl
    | ⟨1, _⟩ => rfl

/-- The sum over the grid of the product array, at frequency f and channel c: the sum over the indices that land on
    (f, c), re-indexed by the grid points. -/
theorem grid_sum_apply (pr : FVec Ideal S7x7x16x256 .f32) (hacc : (0x00000000#32 : BitVec 32) = 0x00000000#32)
    (f : Fin 16) (c : Fin 256) :
    multiReduction .add [0, 1] S16x256 pr 0x00000000#32 reduces_S7x7x16x256_S16x256 (.inl rfl) hacc (ix2 f c)
      = ∑ ij : Fin 7 × Fin 7, pr (ix4 ij.1 ij.2 f c) := by
  classical
  show Ideal.reduceAdd reduces_S7x7x16x256_S16x256 pr (ix2 f c) = _
  unfold Ideal.reduceAdd
  rw [fiber_eq_image f c, Finset.sum_image (fun ij _ ij' _ e => cell_injective f c e)]
  rfl

/-- The greatest entry over the grid of the product array, at frequency f and channel c: the fold of the maximum,
    from the bottom element, over the indices that land on (f, c), re-indexed by the grid points. -/
theorem grid_max_apply (pr : FVec Ideal S7x7x16x256 .f32) (hacc : (0xFF800000#32 : BitVec 32) = 0xFF800000#32)
    (f : Fin 16) (c : Fin 256) :
    multiReduction .maximumf [0, 1] S16x256 pr 0xFF800000#32 reduces_S7x7x16x256_S16x256 (.inl rfl) hacc (ix2 f c)
      = (Finset.univ : Finset (Fin 7 × Fin 7)).fold max ⊥ (fun ij => pr (ix4 ij.1 ij.2 f c)) := by
  classical
  refine (multiReduction_maximumf_eq_fold pr 0xFF800000#32 reduces_S7x7x16x256_S16x256 (.inl rfl) hacc
    (ix2 f c)).trans ?_
  rw [fiber_eq_image f c, Finset.fold_image (fun ij _ ij' _ e => cell_injective f c e)]
  -- the f32 pattern of minus infinity denotes the bottom of the extended reals
  have hb : (FloatOps.ofBits .f32 0xFF800000#32 : Ideal .f32) = (⊥ : EReal) := Spec.neg_inf_eq
  rw [hb]
  rfl

/-- The least entry over the grid of the product array, at frequency f and channel c: the fold of the minimum,
    from the top element, over the indices that land on (f, c), re-indexed by the grid points. -/
theorem grid_min_apply (pr : FVec Ideal S7x7x16x256 .f32) (hacc : (0x7F800000#32 : BitVec 32) = 0x7F800000#32)
    (f : Fin 16) (c : Fin 256) :
    multiReduction .minimumf [0, 1] S16x256 pr 0x7F800000#32 reduces_S7x7x16x256_S16x256 (.inl rfl) hacc (ix2 f c)
      = (Finset.univ : Finset (Fin 7 × Fin 7)).fold min ⊤ (fun ij => pr (ix4 ij.1 ij.2 f c)) := by
  classical
  refine (multiReduction_minimumf_eq_fold pr 0x7F800000#32 reduces_S7x7x16x256_S16x256 (.inl rfl) hacc
    (ix2 f c)).trans ?_
  rw [fiber_eq_image f c, Finset.fold_image (fun ij _ ij' _ e => cell_injective f c e)]
  -- the f32 pattern of plus infinity denotes the top of the extended reals
  have hb : (FloatOps.ofBits .f32 0x7F800000#32 : Ideal .f32) = (⊤ : EReal) := Spec.pos_inf_eq
  rw [hb]
  rfl

/-! ## The three rows -/

theorem avgOf_apply (pr : FVec Ideal S7x7x16x256 .f32) (c : Fin 256) :
    KTerms.avgOf pr (ix2 (0 : Fin 1) c)
      = Ideal.div (∑ f : Fin 16, Ideal.div (∑ ij : Fin 7 × Fin 7, pr (ix4 ij.1 ij.2 f c)) Spec.c49) Spec.c16 := by
  unfold KTerms.avgOf
  rw [divf_apply, row_apply, sum_freq_apply]
  -- the divisor is the number 16 at every entry; under the sum, each entry is the grid's sum divided by 49
  refine congrArg₂ Ideal.div (Finset.sum_congr rfl fun f _ => ?_) rfl
  rw [divf_apply, grid_sum_apply]
  rfl

theorem maxOf_apply (pr : FVec Ideal S7x7x16x256 .f32) (c : Fin 256) :
    KTerms.maxOf pr (ix2 (0 : Fin 1) c)
      = Ideal.div (∑ f : Fin 16, (Finset.univ : Finset (Fin 7 × Fin 7)).fold max ⊥ (fun ij => pr (ix4 ij.1 ij.2 f c))) Spec.c16 := by
  unfold KTerms.maxOf
  rw [divf_apply, row_apply, sum_freq_apply]
  refine congrArg₂ Ideal.div (Finset.sum_congr rfl fun f _ => ?_) rfl
  exact grid_max_apply pr rfl f c

theorem minOf_apply (pr : FVec Ideal S7x7x16x256 .f32) (c : Fin 256) :
    KTerms.minOf pr (ix2 (0 : Fin 1) c)
      = Ideal.div (∑ f : Fin 16, (Finset.univ : Finset (Fin 7 × Fin 7)).fold min ⊤ (fun ij => pr (ix4 ij.1 ij.2 f c))) Spec.c16 := by
  unfold KTerms.minOf
  rw [divf_apply, row_apply, sum_freq_apply]
  refine congrArg₂ Ideal.div (Finset.sum_congr rfl fun f _ => ?_) rfl
  exact grid_min_apply pr rfl f c

end Cert.KFeatures

end
-- ==== Proof.KMix.lean ====
/-
  The two-layer map and the logistic function read at an index: both matrix products are plain sums, the change of
  number format is the identity on the exact values.
-/
import proofs.«424325_j292057776143_3_alg».proof.Proof.KTerms
import proofs.«424325_j292057776143_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KMix

open Idealize.ShloMosaic Idealize.ShloMosaic.ValueIdx Cert.KernelIdeal Cert.KernelIdeal.Gen

/-- The zero offset of a rank-2 whole-block rectangle, as a constant function. -/
theorem off2_zero : (![0, 0] : Fin 2 → Nat) = fun _ => 0 :=
  funext fun a => by match a with | ⟨0, _⟩ => rfl | ⟨1, _⟩ => rfl

/-- The zero offset of a rank-3 whole-block rectangle, as a constant function. -/
theorem off3_zero : (![0, 0, 0] : Fin 3 → Nat) = fun _ => 0 :=
  funext fun a => by match a with | ⟨0, _⟩ => rfl | ⟨1, _⟩ => rfl | ⟨2, _⟩ => rfl

/-- The first-layer weights as the body reads them (a whole-block load, a change of format): entry for entry the block. -/
theorem pay54_apply (x1 : Vec Ideal S256x16 .f32) (k : Fin 256) (r : Fin 16) :
    k0_pay54 (View.ld x1 r0_2) (ix2 k r) = x1 (ix2 k r) := by
  unfold k0_pay54
  rw [View.ld_unit_zero (S := S256x16) off2_zero]
  show shapeCast S256x16 x1 shapeCasts_S256x16_S256x16 (ix2 k r) = _
  rw [shapeCast_self]

/-- The second-layer weights likewise. -/
theorem pay55_apply (x2 : Vec Ideal S16x256 .f32) (r : Fin 16) (c : Fin 256) :
    k0_pay55 (View.ld x2 r0_3) (ix2 r c) = x2 (ix2 r c) := by
  unfold k0_pay55
  rw [View.ld_unit_zero (S := S16x256) off2_zero]
  show shapeCast S16x256 x2 shapeCasts_S16x256_S16x256 (ix2 r c) = _
  rw [shapeCast_self]

/-- The filters as the body reads them: the block itself. -/
theorem ld_filters (x3 : Vec Ideal S7x7x16 .f32) : View.ld x3 r0_1 = x3 :=
  View.ld_unit_zero (S := S7x7x16) off3_zero _ x3

/-! ## The first product's index maps: output (0, r), contraction k, operands at (0, k) and (k, r) -/

theorem lhs_hidden_0 (i : S1x16.Idx) (q : dot_S1x256_S256x16_S1x16_1_0_0_1_n_n.contr.Idx) :
    (dot_S1x256_S256x16_S1x16_1_0_0_1_n_n.lhsIdx i q 0).val = (i 0).val := by
  unfold DotDims.lhsIdx
  rw [dif_neg (show ¬(0 : Fin S1x256.rank) ∈ dot_S1x256_S256x16_S1x16_1_0_0_1_n_n.lhsBatch by decide), dif_pos (show (0 : Fin S1x256.rank) ∈ dot_S1x256_S256x16_S1x16_1_0_0_1_n_n.lhsNonContracting by decide)]
  rfl
theorem lhs_hidden_1 (i : S1x16.Idx) (q : dot_S1x256_S256x16_S1x16_1_0_0_1_n_n.contr.Idx) :
    (dot_S1x256_S256x16_S1x16_1_0_0_1_n_n.lhsIdx i q 1).val = (q ⟨0, by decide⟩).val :=
  dot_S1x256_S256x16_S1x16_1_0_0_1_n_n.lhsIdx_val_of_single rfl i q
theorem rhs_hidden_0 (i : S1x16.Idx) (q : dot_S1x256_S256x16_S1x16_1_0_0_1_n_n.contr.Idx) :
    (dot_S1x256_S256x16_S1x16_1_0_0_1_n_n.rhsIdx i q 0).val = (q ⟨0, by decide⟩).val :=
  dot_S1x256_S256x16_S1x16_1_0_0_1_n_n.rhsIdx_val_of_single rfl i q
theorem rhs_hidden_1 (i : S1x16.Idx) (q : dot_S1x256_S256x16_S1x16_1_0_0_1_n_n.contr.Idx) :
    (dot_S1x256_S256x16_S1x16_1_0_0_1_n_n.rhsIdx i q 1).val = (i 1).val := by
  unfold DotDims.rhsIdx
  rw [dif_neg (show ¬(1 : Fin S256x16.rank) ∈ dot_S1x256_S256x16_S1x16_1_0_0_1_n_n.rhsBatch by decide), dif_pos (show (1 : Fin S256x16.rank) ∈ dot_S1x256_S256x16_S1x16_1_0_0_1_n_n.rhsNonContracting by decide)]
  rfl

/-- The first product with a zero accumulator at (0, r): the sum over the 256 channels of row entry times weight. -/
theorem matmul_hidden_apply (l : FVec Ideal S1x256 .bf16) (w : FVec Ideal S256x16 .bf16) (r : Fin 16) :
    matmul dot_S1x256_S256x16_S1x16_1_0_0_1_n_n none l w (constant S1x16 .f32 0x00000000#32) (ix2 (0 : Fin 1) r)
      = ∑ k : Fin 256, l (ix2 (0 : Fin 1) k) * w (ix2 k r) := by
  simp only [matmul]
  rw [Ideal.matmul_constant_zero_apply, ← Equiv.sum_comp (contrEquiv1 dot_S1x256_S256x16_S1x16_1_0_0_1_n_n 256 rfl rfl).symm]
  refine Finset.sum_congr rfl fun k _ => ?_
  have hk := contrEquiv1_symm_val dot_S1x256_S256x16_S1x16_1_0_0_1_n_n 256 rfl rfl k
  have el : dot_S1x256_S256x16_S1x16_1_0_0_1_n_n.lhsIdx (ix2 (0 : Fin 1) r) ((contrEquiv1 dot_S1x256_S256x16_S1x16_1_0_0_1_n_n 256 rfl rfl).symm k) = ix2 (0 : Fin 1) k := funext fun a => Fin.ext (by
    match a with
    | ⟨0, _⟩ => exact lhs_hidden_0 _ _
    | ⟨1, _⟩ => exact (lhs_hidden_1 _ _).trans hk)
  have er : dot_S1x256_S256x16_S1x16_1_0_0_1_n_n.rhsIdx (ix2 (0 : Fin 1) r) ((contrEquiv1 dot_S1x256_S256x16_S1x16_1_0_0_1_n_n 256 rfl rfl).symm k) = ix2 k r := funext fun a => Fin.ext (by
    match a with
    | ⟨0, _⟩ => exact (rhs_hidden_0 _ _).trans hk
    | ⟨1, _⟩ => exact rhs_hidden_1 _ _)
  rw [el, er]

/-! ## The second product's index maps: output (0, c), contraction r, operands at (0, r) and (r, c) -/

theorem lhs_mix_0 (i : S1x256.Idx) (q : dot_S1x16_S16x256_S1x256_1_0_0_1_n_n.contr.Idx) :
    (dot_S1x16_S16x256_S1x256_1_0_0_1_n_n.lhsIdx i q 0).val = (i 0).val := by
  unfold DotDims.lhsIdx
  rw [dif_neg (show ¬(0 : Fin S1x16.rank) ∈ dot_S1x16_S16x256_S1x256_1_0_0_1_n_n.lhsBatch by decide), dif_pos (show (0 : Fin S1x16.rank) ∈ dot_S1x16_S16x256_S1x256_1_0_0_1_n_n.lhsNonContracting by decide)]
  rfl
theorem lhs_mix_1 (i : S1x256.Idx) (q : dot_S1x16_S16x256_S1x256_1_0_0_1_n_n.contr.Idx) :
    (dot_S1x16_S16x256_S1x256_1_0_0_1_n_n.lhsIdx i q 1).val = (q ⟨0, by decide⟩).val :=
  dot_S1x16_S16x256_S1x256_1_0_0_1_n_n.lhsIdx_val_of_single rfl i q
theorem rhs_mix_0 (i : S1x256.Idx) (q : dot_S1x16_S16x256_S1x256_1_0_0_1_n_n.contr.Idx) :
    (dot_S1x16_S16x256_S1x256_1_0_0_1_n_n.rhsIdx i q 0).val = (q ⟨0, by decide⟩).val :=
  dot_S1x16_S16x256_S1x256_1_0_0_1_n_n.rhsIdx_val_of_single rfl i q
theorem rhs_mix_1 (i : S1x256.Idx) (q : dot_S1x16_S16x256_S1x256_1_0_0_1_n_n.contr.Idx) :
    (dot_S1x16_S16x256_S1x256_1_0_0_1_n_n.rhsIdx i q 1).val = (i 1).val := by
  unfold DotDims.rhsIdx
  rw [dif_neg (show ¬(1 : Fin S16x256.rank) ∈ dot_S1x16_S16x256_S1x256_1_0_0_1_n_n.rhsBatch by decide), dif_pos (show (1 : Fin S16x256.rank) ∈ dot_S1x16_S16x256_S1x256_1_0_0_1_n_n.rhsNonContracting by decide)]
  rfl

/-- The second product with a zero accumulator at (0, c): the sum over the 16 hidden units. -/
theorem matmul_mix_apply (h : FVec Ideal S1x16 .bf16) (wb : FVec Ideal S16x256 .bf16) (c : Fin 256) :
    matmul dot_S1x16_S16x256_S1x256_1_0_0_1_n_n none h wb (constant S1x256 .f32 0x00000000#32) (ix2 (0 : Fin 1) c)
      = ∑ r : Fin 16, h (ix2 (0 : Fin 1) r) * wb (ix2 r c) := by
  simp only [matmul]
  rw [Ideal.matmul_constant_zero_apply, ← Equiv.sum_comp (contrEquiv1 dot_S1x16_S16x256_S1x256_1_0_0_1_n_n 16 rfl rfl).symm]
  refine Finset.sum_congr rfl fun k _ => ?_
  have hk := contrEquiv1_symm_val dot_S1x16_S16x256_S1x256_1_0_0_1_n_n 16 rfl rfl k
  have el : dot_S1x16_S16x256_S1x256_1_0_0_1_n_n.lhsIdx (ix2 (0 : Fin 1) c) ((contrEquiv1 dot_S1x16_S16x256_S1x256_1_0_0_1_n_n 16 rfl rfl).symm k) = ix2 (0 : Fin 1) k := funext fun a => Fin.ext (by
    match a with
    | ⟨0, _⟩ => exact lhs_mix_0 _ _
    | ⟨1, _⟩ => exact (lhs_mix_1 _ _).trans hk)
  have er : dot_S1x16_S16x256_S1x256_1_0_0_1_n_n.rhsIdx (ix2 (0 : Fin 1) c) ((contrEquiv1 dot_S1x16_S16x256_S1x256_1_0_0_1_n_n 16 rfl rfl).symm k) = ix2 k c := funext fun a => Fin.ext (by
    match a with
    | ⟨0, _⟩ => exact (rhs_mix_0 _ _).trans hk
    | ⟨1, _⟩ => exact rhs_mix_1 _ _)
  rw [el, er]

/-- Hidden unit `r`: the positive part of the row times column `r` of the first layer. -/
theorem hiddenOf_apply (v : FVec Ideal S1x256 .f32) (wa : FVec Ideal S256x16 .bf16) (r : Fin 16) :
    KTerms.hiddenOf v wa (ix2 (0 : Fin 1) r) = max (∑ k : Fin 256, v (ix2 (0 : Fin 1) k) * wa (ix2 k r)) 0 := by
  unfold KTerms.hiddenOf
  rw [truncf_apply, maximumf_apply, matmul_hidden_apply, broadcast_apply]
  show max _ (Ideal.ofBits .f32 0x00000000#32) = _
  rw [Ideal.ofBits_zero_f32]
  rfl

/-- Channel `c` of the second layer: the sum over the hidden units. -/
theorem mixOf_apply (h : FVec Ideal S1x16 .bf16) (wb : FVec Ideal S16x256 .bf16) (c : Fin 256) :
    KTerms.mixOf h wb (ix2 (0 : Fin 1) c) = ∑ r : Fin 16, h (ix2 (0 : Fin 1) r) * wb (ix2 r c) := by
  unfold KTerms.mixOf
  exact matmul_mix_apply h wb c

/-- The stored gate at (0, 0, c): the logistic function of the three mixed rows added at (0, c). -/
theorem gateOf_apply (hAvg : FVec Ideal S1x16 .bf16) (vMax vMin : FVec Ideal S1x256 .f32) (wa : FVec Ideal S256x16 .bf16)
    (wb : FVec Ideal S16x256 .bf16) (c : Fin 256) :
    KTerms.gateOf hAvg vMax vMin wa wb (ix3 (0 : Fin 1) (0 : Fin 1) c)
      = Ideal.logistic (KTerms.mixOf hAvg wb (ix2 (0 : Fin 1) c) + KTerms.mixOf (KTerms.hiddenOf vMax wa) wb (ix2 (0 : Fin 1) c)
          + KTerms.mixOf (KTerms.hiddenOf vMin wa) wb (ix2 (0 : Fin 1) c)) := by
  unfold KTerms.gateOf
  generalize KTerms.mixOf hAvg wb = m1
  generalize KTerms.mixOf (KTerms.hiddenOf vMax wa) wb = m2
  generalize KTerms.mixOf (KTerms.hiddenOf vMin wa) wb = m3
  refine (shapeCast_ab_1ab_apply (a := 1) (b := 256) _ shapeCasts_S1x256_S1x1x256 (0 : Fin 1) (0 : Fin 1) c).trans ?_
  rfl

end Cert.KMix

end
-- ==== Proof.KApply.lean ====
/-
  The second kernel's block: every entry of the image block times its channel's gate.

  The body reads the image block as 256 rows of 56 * 56 = 3136 entries, stands the gate row (1 x 256) up as a column
  (256 x 1), stretches it along the rows, multiplies, and reads the result back as 1 x 256 x 56 x 56.  All of this only
  renames indices: the entry at (0, c, h, w) is the image's entry there times the gate's entry c.
-/
import proofs.«424325_j292057776143_3_alg».proof.Proof.Gen.KernelIdeal.Skeleton
import proofs.«424325_j292057776143_3_alg».proof.Proof.Gen.KernelIdeal.Frame
import Idealize.ShloMosaic.PureOps.Ideal
import Idealize.ShloMosaic.Lib.ValueIdx
import Idealize.ShloMosaic.Lib.Pipeline.Value

noncomputable section

namespace Cert.KApply

open Idealize.ShloMosaic Idealize.ShloMosaic.ValueIdx Cert.KernelIdeal Cert.KernelIdeal.Gen

/-- The offsets of a rectangle that is its whole block. -/
theorem off4 : (![0, 0, 0, 0] : Fin 4 → ℕ) = fun _ => 0 := by
  funext a; match a with | ⟨0, _⟩ => rfl | ⟨1, _⟩ => rfl | ⟨2, _⟩ => rfl | ⟨3, _⟩ => rfl
theorem off3 : (![0, 0, 0] : Fin 3 → ℕ) = fun _ => 0 := by
  funext a; match a with | ⟨0, _⟩ => rfl | ⟨1, _⟩ => rfl | ⟨2, _⟩ => rfl

/-- Entry `(0, c, h, w)` of what the body stores: the image's entry times the gate of channel `c`. -/
theorem apply_block (x0 : Vec Ideal S1x256x56x56 .f32) (g : Vec Ideal S1x1x256 .f32) (c : Fin 256) (h w : Fin 56) :
    out1_2 x0 g (ix4 (0 : Fin 1) c h w) = x0 (ix4 (0 : Fin 1) c h w) * g (ix3 (0 : Fin 1) (0 : Fin 1) c) := by
  unfold out1_2
  rw [View.canon_unit_zero off4, View.ld_unit_zero (S := S1x256x56x56) off4, View.ld_unit_zero (S := S1x1x256) off3]
  unfold k1_pay1
  -- 1 x 256 x 56 x 56 read as 256 x 56 x 56, read as 256 x 3136
  refine (shapeCast_apply _ _ _ (ix3 c h w) ?_).trans ?_
  · rw [Shape.rowMajor_val_three, Shape.rowMajor_val_four]
    show (c.val * 56 + h.val) * 56 + w.val = ((0 * 256 + c.val) * 56 + h.val) * 56 + w.val
    omega
  refine (shapeCast_apply _ _ _ (ix2 c (⟨56 * h.val + w.val, by omega⟩ : Fin 3136)) ?_).trans ?_
  · rw [Shape.rowMajor_val_two, Shape.rowMajor_val_three]
    show c.val * 3136 + (56 * h.val + w.val) = (c.val * 56 + h.val) * 56 + w.val
    omega
  rw [mulf_apply]
  congr 1
  · -- the image's side: back through the same two renamings
    refine (shapeCast_apply _ _ _ (ix3 c h w) ?_).trans ?_
    · rw [Shape.rowMajor_val_two, Shape.rowMajor_val_three]
      show (c.val * 56 + h.val) * 56 + w.val = c.val * 3136 + (56 * h.val + w.val)
      omega
    refine shapeCast_apply _ _ _ (ix4 (0 : Fin 1) c h w) ?_
    rw [Shape.rowMajor_val_three, Shape.rowMajor_val_four]
    show ((0 * 256 + c.val) * 56 + h.val) * 56 + w.val = (c.val * 56 + h.val) * 56 + w.val
    omega
  · -- the gate's side: the column stretched along the row, the row stood up, the leading unit axis dropped
    refine (broadcastTo_apply _ _ _ (ix2 c (0 : Fin 1)) ?_).trans ?_
    · intro a
      match a with
      | ⟨0, _⟩ => rfl
      | ⟨1, _⟩ => rfl
    refine (transpose_apply _ _ _ _ (ix2 (0 : Fin 1) c) ?_).trans ?_
    · intro b
      match b with
      | ⟨0, _⟩ => rfl
      | ⟨1, _⟩ => rfl
    refine shapeCast_apply _ _ _ (ix3 (0 : Fin 1) (0 : Fin 1) c) ?_
    rw [Shape.rowMajor_val_two, Shape.rowMajor_val_three]
    show (0 * 1 + 0) * 256 + c.val = 0 * 256 + c.val
    omega

end Cert.KApply

end
-- ==== Proof.KGate.lean ====
/-
  The first kernel's block: entry `c` of what the body stores is the gate of channel `c` of the image it read.

  The stored value is the body's groups composed; each group has been read at an index.  Put together: the product
  array at (i, j, f, c) is the pooled mean of bin (i, j) of channel c times filter f's entry (i, j); the three feature
  rows are the specification's mean, greatest and least entry of that grid averaged over the frequencies; the
  two-layer map and the logistic function are the specification's, with the first layer read as (channel, hidden
  unit) and the second as (hidden unit, channel), the way the kernel receives them.
-/
import proofs.«424325_j292057776143_3_alg».proof.Proof.KTerms
import proofs.«424325_j292057776143_3_alg».proof.Proof.Spec
import proofs.«424325_j292057776143_3_alg».proof.Proof.KRows
import proofs.«424325_j292057776143_3_alg».proof.Proof.KProduct
import proofs.«424325_j292057776143_3_alg».proof.Proof.KFeatures
import proofs.«424325_j292057776143_3_alg».proof.Proof.KMix
import proofs.«424325_j292057776143_3_alg».proof.Proof.KApply

noncomputable section

namespace Cert.KGate

open Idealize.ShloMosaic Idealize.ShloMosaic.ValueIdx Cert.KernelIdeal Cert.KernelIdeal.Gen

variable (x0 : Vec Ideal S1x256x56x56 .f32) (x1 : Vec Ideal S256x16 .f32) (x2 : Vec Ideal S16x256 .f32)
  (x3 : Vec Ideal S7x7x16 .f32)

/-- The block's image, layers and filters over plain coordinates: the first layer arrives as (channel, hidden unit),
    the second as (hidden unit, channel), the filters as (bin row, bin column, frequency). -/
abbrev image : Fin 256 → Fin 56 → Fin 56 → EReal := fun c h w => x0 (ix4 (0 : Fin 1) c h w)
abbrev layer1 : Fin 16 → Fin 256 → EReal := fun r k => x1 (ix2 k r)
abbrev layer2 : Fin 256 → Fin 16 → EReal := fun c r => x2 (ix2 r c)
abbrev filters : Fin 16 → Fin 7 → Fin 7 → EReal := fun f p q => x3 (ix3 p q f)

/-- The product array, entry by entry, is the specification's weighed grid. -/
theorem prodArr_apply (ij : Fin 7 × Fin 7) (f : Fin 16) (c : Fin 256) :
    KTerms.prodArr x0 x3 (ix4 ij.1 ij.2 f c) = Spec.weighed (image x0) (filters x3) c f ij := by
  unfold KTerms.prodArr
  rw [KProduct.prodOf_apply, KRows.pooledArr_apply, KMix.ld_filters]
  rfl

theorem avg_apply (k : Fin 256) :
    KTerms.avgOf (KTerms.prodArr x0 x3) (ix2 (0 : Fin 1) k) = Spec.featAvg (image x0) (filters x3) k := by
  rw [KFeatures.avgOf_apply]
  simp only [prodArr_apply]
  rfl

theorem max_apply (k : Fin 256) :
    KTerms.maxOf (KTerms.prodArr x0 x3) (ix2 (0 : Fin 1) k) = Spec.featMax (image x0) (filters x3) k := by
  rw [KFeatures.maxOf_apply]
  simp only [prodArr_apply]
  rfl

theorem min_apply (k : Fin 256) :
    KTerms.minOf (KTerms.prodArr x0 x3) (ix2 (0 : Fin 1) k) = Spec.featMin (image x0) (filters x3) k := by
  rw [KFeatures.minOf_apply]
  simp only [prodArr_apply]
  rfl

/-- Entry `c` of the stored block is the gate of channel `c`. -/
theorem gate_block (c : Fin 256) :
    out0_4 x0 x1 x2 x3 (ix3 (0 : Fin 1) (0 : Fin 1) c)
      = Spec.gate (image x0) (layer1 x1) (layer2 x2) (filters x3) c := by
  rw [KTerms.out0_4_eq, View.canon_unit_zero KApply.off3, KMix.gateOf_apply]
  simp only [KMix.mixOf_apply, KMix.hiddenOf_apply, KMix.pay54_apply, KMix.pay55_apply, avg_apply, max_apply, min_apply]
  rfl

end Cert.KGate

end
-- ==== Proof.KernelValue.lean ====
/-
  The kernel program's result array, as one function of the argument arrays.

  First region: grid point t writes back, as block t of the gate array, the gates of image t — the body's stored
  block is the gate of the block it read, and the blocks it read are image t, the two layers turned over by the host
  and the filters with their frequency axis moved last, which is how the specification's gate takes them.  The blocks
  fill the array, so the gate array ends at (b, 0, c) ↦ gate of channel c of image b.
  Second region: grid point t writes back image t times its gates; these blocks fill the result array, which
  therefore ends at the specification's function of the four arguments.
-/
import proofs.«424325_j292057776143_3_alg».proof.Proof.KernelArrays
import proofs.«424325_j292057776143_3_alg».proof.Proof.KGate

set_option maxRecDepth 16384

noncomputable section

namespace Cert.KernelValue

open Idealize.ShloMosaic Idealize.ShloMosaic.TcCoe Idealize.ShloMosaic.ValueIdx Idealize.SL.Sem
open Cert.KernelIdeal Cert.KernelIdeal.Gen Cert.KernelArrays

variable (m : (ℓ : Loc nD τ sig) → Buf (Elt Ideal) ℓ) (ρ : Dev nD → PrngReg)

/-- The gates of every image: entry `(b, 0, c)` is the gate of channel `c` of image `b`. -/
def gateArr (c : Dev nD) : Vec Ideal S32x1x256 .f32 := fun i =>
  Spec.gate (fun ch h w => argX m c (ix4 (i 0 : Fin 32) ch h w)) (fun r k => argW1 m c (ix2 r k))
    (fun ch r => argW2 m c (ix2 ch r)) (fun f p q => argD m c (ix3 f p q)) (i 2 : Fin 256)

/-- The specification's result of the launched arguments. -/
def outArr (c : Dev nD) : Vec Ideal S32x256x56x56 .f32 := Spec.out (argX m c) (argW1 m c) (argW2 m c) (argD m c)

/-! ## The first region -/

/-- The first layer as the first region's window finds it: turned over. -/
theorem layer1_blk (c : Dev nD) (t : Fin cfg0.N) :
    KGate.layer1 (iblk0 (V1 m ρ) c 1 t) = fun r k => argW1 m c (ix2 r k) := by
  funext r k
  show iblk0 (V1 m ρ) c 1 t (ix2 k r) = _
  rw [blk0_1, V1_v0]
  refine transpose_apply _ _ _ _ (ix2 r k) ?_
  intro b
  match b with
  | ⟨0, _⟩ => rfl
  | ⟨1, _⟩ => rfl

/-- The second layer likewise. -/
theorem layer2_blk (c : Dev nD) (t : Fin cfg0.N) :
    KGate.layer2 (iblk0 (V1 m ρ) c 2 t) = fun ch r => argW2 m c (ix2 ch r) := by
  funext ch r
  show iblk0 (V1 m ρ) c 2 t (ix2 r ch) = _
  rw [blk0_2, V1_v1]
  refine transpose_apply _ _ _ _ (ix2 ch r) ?_
  intro b
  match b with
  | ⟨0, _⟩ => rfl
  | ⟨1, _⟩ => rfl

/-- The filters as the window finds them: the frequency axis last. -/
theorem filters_blk (c : Dev nD) (t : Fin cfg0.N) :
    KGate.filters (iblk0 (V1 m ρ) c 3 t) = fun f p q => argD m c (ix3 f p q) := by
  funext f p q
  show iblk0 (V1 m ρ) c 3 t (ix3 p q f) = _
  rw [blk0_3, V1_v2]
  refine transpose_apply _ _ _ _ (ix3 f p q) ?_
  intro b
  match b with
  | ⟨0, _⟩ => rfl
  | ⟨1, _⟩ => rfl
  | ⟨2, _⟩ => rfl

/-- The image window's block at point `t` is image `t`. -/
theorem image_blk (c : Dev nD) (t : Fin cfg0.N) :
    KGate.image (iblk0 (V1 m ρ) c 0 t) = fun ch h w => argX m c (ix4 (pt0 t) ch h w) := by
  funext ch h w
  show iblk0 (V1 m ρ) c 0 t (ix4 (0 : Fin 1) ch h w) = _
  rw [blk0_0, V1_arg0]

/-- What point `t` writes back is block `t` of the gate array. -/
theorem flushed0_4 (c : Dev nD) (t : Fin cfg0.N) :
    (dat0 (V1 m ρ) c).flushed 4 t = ((cfg0.win 4).blk t).view.read (Elt Ideal) (gateArr m c) := by
  show (cfg0.win 4).cut (grid0.coords t) ((dat0 (V1 m ρ) c).after 4 t) = _
  rw [after0_4]
  funext (j : S1x1x256.Idx)
  -- a block index is (0, 0, ch): its first two axes have length one
  obtain ⟨ch, rfl⟩ : ∃ ch : Fin 256, j = ix3 (0 : Fin 1) (0 : Fin 1) ch := ⟨(j 2 : Fin 256), by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl⟩
  show out0_4 (iblk0 (V1 m ρ) c 0 t) (iblk0 (V1 m ρ) c 1 t) (iblk0 (V1 m ρ) c 2 t) (iblk0 (V1 m ρ) c 3 t)
      (ix3 (0 : Fin 1) (0 : Fin 1) ch)
    = gateArr m c (((cfg0.win 4).blk t).view.emb (ix3 (0 : Fin 1) (0 : Fin 1) ch))
  rw [emb0_4]
  refine (KGate.gate_block (iblk0 (V1 m ρ) c 0 t) (iblk0 (V1 m ρ) c 1 t) (iblk0 (V1 m ρ) c 2 t) (iblk0 (V1 m ρ) c 3 t)
    ch).trans ?_
  rw [image_blk, layer1_blk, layer2_blk, filters_blk]
  rfl

/-- The gate array after the first region. -/
theorem arr0 (c : Dev nD) : (dat0 (V1 m ρ) c).arrAt 4 cfg0.N = gateArr m c :=
  (dat0 (V1 m ρ) c).arrAt_eq_of_cover 4 (gateArr m c) (fun t _ => flushed0_4 m ρ c t) cover0_4

/-! ## What the second region finds -/

theorem V2_arg0 (c : Dev nD) : (V2 m ρ c main_arg0 : Vec Ideal S32x256x56x56 .f32) = argX m c :=
  ((W2_arr m ρ c 0).trans (((dat0 (V1 m ρ) c).arrAt_in 0 rfl _).trans (A_eq0 (V1 m ρ) c 0))).trans (V1_arg0 m ρ c)

theorem V2_v3 (c : Dev nD) : (V2 m ρ c main_v3 : Vec Ideal S32x1x256 .f32) = gateArr m c :=
  (W2_arr m ρ c 4).trans (arr0 m ρ c)

/-! ## The second region -/

/-- What point `t` writes back is block `t` of the specification's result. -/
theorem flushed1_2 (c : Dev nD) (t : Fin cfg1.N) :
    (dat1 (V2 m ρ) c).flushed 2 t = ((cfg1.win 2).blk t).view.read (Elt Ideal) (outArr m c) := by
  show (cfg1.win 2).cut (grid1.coords t) ((dat1 (V2 m ρ) c).after 2 t) = _
  rw [after1_2]
  funext (j : S1x256x56x56.Idx)
  -- a block index is (0, ch, h, w): its first axis has length one
  obtain ⟨ch, h, w, rfl⟩ : ∃ (ch : Fin 256) (h w : Fin 56), j = ix4 (0 : Fin 1) ch h w :=
    ⟨(j 1 : Fin 256), (j 2 : Fin 56), (j 3 : Fin 56), by
      funext a
      match a with
      | ⟨0, _⟩ => exact Fin.ext (by have h : (j 0).val < 1 := (j 0).isLt; show (j 0).val = 0; omega)
      | ⟨1, _⟩ => rfl
      | ⟨2, _⟩ => rfl
      | ⟨3, _⟩ => rfl⟩
  show out1_2 (iblk1 (V2 m ρ) c 0 t) (iblk1 (V2 m ρ) c 1 t) (ix4 (0 : Fin 1) ch h w)
    = outArr m c (((cfg1.win 2).blk t).view.emb (ix4 (0 : Fin 1) ch h w))
  rw [emb1_2]
  refine (KApply.apply_block (iblk1 (V2 m ρ) c 0 t) (iblk1 (V2 m ρ) c 1 t) ch h w).trans ?_
  rw [blk1_0, blk1_1, V2_arg0, V2_v3]
  rfl

/-- The result array after the second region. -/
theorem arr1 (c : Dev nD) : (dat1 (V2 m ρ) c).arrAt 2 cfg1.N = outArr m c :=
  (dat1 (V2 m ρ) c).arrAt_eq_of_cover 2 (outArr m c) (fun t _ => flushed1_2 m ρ c t) cover1_2

/-- The last boundary's contents at the result array: the specification's function of the launched arguments. -/
theorem result (c : Dev nD) : (W3 m ρ c (Proc.devRef .tc main_v4) : Vec Ideal S32x256x56x56 .f32) = outArr m c :=
  (W3_arr m ρ c 2).trans (arr1 m ρ c)

end Cert.KernelValue

end
-- ==== Proof.RefFeatures.lean ====
/-
  The reference's first half, stage by stage: the pooled grid, its product with the filters, and the three feature
  vectors, each read at an index as the specification writes it.

  Two facts about indices carry the module.  The reshape of an image into bins keeps every entry's row-major
  position, so entry (b, c, i, p, j, q) of the binned array is the image at row 8 i + p and column 8 j + q.  And the
  indices that a reduction over two axes sends to one result index are the image of the product of those two axes
  under an injective map, so the reduction is a sum, or a fold of max or min, over that product.
-/
import proofs.«424325_j292057776143_3_alg».proof.Proof.Gen.ReferenceIdeal.Read
import proofs.«424325_j292057776143_3_alg».proof.Proof.Spec
import Idealize.ShloMosaic.PureOps.Ideal.Laws
import Idealize.ShloMosaic.PureOps.Reduce
import Idealize.ShloMosaic.Lib.ValueIdx
import Idealize.ShloMosaic.Lib.ValueIdxRank6
import Idealize.ShloMosaic.Lib.Pipeline.Value
import Idealize.ShloMosaic.Lib.ValueLayout
import Mathlib.Algebra.BigOperators.Group.Finset.Basic
import Mathlib.Data.Finset.Fold
import Mathlib.Data.Fintype.BigOperators

noncomputable section

namespace Cert.RefFeatures

open Idealize.ShloMosaic Idealize.ShloMosaic.ValueIdx Cert.ReferenceIdeal Cert.ReferenceIdeal.Read

/-! ## Indices -/

/-- The binned array at (b, c, i, p, j, q) is the image at row 8 i + p and column 8 j + q: the two indices have the
    same row-major position. -/
theorem binned_apply (x0 : Vec Ideal S32x256x56x56 .f32) (b : Fin 32) (c : Fin 256) (i : Fin 7) (p : Fin 8) (j : Fin 7)
    (q : Fin 8) :
    val_main_v0 (F := Ideal) x0 (ix6 b c i p j q) = x0 (ix4 b c (Spec.at8 i p) (Spec.at8 j q)) := by
  unfold val_main_v0
  refine shapeCast_apply x0 _ (ix6 b c i p j q) (ix4 b c (Spec.at8 i p) (Spec.at8 j q)) ?_
  rw [Shape.rowMajor_val_four, Shape.rowMajor_val_six]
  show ((b.val * 256 + c.val) * 56 + (8 * i.val + p.val)) * 56 + (8 * j.val + q.val)
    = ((((b.val * 256 + c.val) * 7 + i.val) * 8 + p.val) * 7 + j.val) * 8 + q.val
  omega

/-- The indices of the binned array that a sum over axes 3 and 5 sends to (b, c, i, j) are exactly the
    (b, c, i, p, j, q), one for each pair (p, q). -/
theorem bin_fibre (h' : S32x256x7x8x7x8.ReducesTo [3, 5] S32x256x7x7) (b : Fin 32) (c : Fin 256) (i j : Fin 7) :
    (Finset.univ.filter fun m : S32x256x7x8x7x8.Idx => h'.drop m = ix4 b c i j)
      = (Finset.univ : Finset (Fin 8 × Fin 8)).image (fun pq => ix6 b c i pq.1 j pq.2) := by
  classical
  ext m
  have h0 : (h'.drop m 0 : Nat) = m 0 := Shape.ReducesTo.drop_apply_val_of_eq h' m 0 0
  have h1 : (h'.drop m 1 : Nat) = m 1 := Shape.ReducesTo.drop_apply_val_of_eq h' m 1 1
  have h2 : (h'.drop m 2 : Nat) = m 2 := Shape.ReducesTo.drop_apply_val_of_eq h' m 2 2
  have h3 : (h'.drop m 3 : Nat) = m 4 := Shape.ReducesTo.drop_apply_val_of_eq h' m 3 4
  simp only [Finset.mem_filter, Finset.mem_univ, true_and, Finset.mem_image, Prod.exists]
  constructor
  · intro e
    rw [e] at h0 h1 h2 h3
    refine ⟨(m 3 : Fin 8), (m 5 : Fin 8), ?_⟩
    funext a
    match a with
    | ⟨0, _⟩ => exact Fin.ext h0
    | ⟨1, _⟩ => exact Fin.ext h1
    | ⟨2, _⟩ => exact Fin.ext h2
    | ⟨3, _⟩ => rfl
    | ⟨4, _⟩ => exact Fin.ext h3
    | ⟨5, _⟩ => rfl
  · rintro ⟨p, q, rfl⟩
    funext a
    match a with
    | ⟨0, _⟩ => exact Fin.ext h0
    | ⟨1, _⟩ => exact Fin.ext h1
    | ⟨2, _⟩ => exact Fin.ext h2
    | ⟨3, _⟩ => exact Fin.ext h3

/-- The host sum over axes 3 and 5 of the binned array, at (b, c, i, j): the initial value plus the double sum over the
    positions (p, q) of the bin. -/
theorem hostReduceAdd_bins (h' : S32x256x7x8x7x8.ReducesTo [3, 5] S32x256x7x7) (y : S32x256x7x8x7x8.Idx → EReal)
    (init : EReal) (b : Fin 32) (c : Fin 256) (i j : Fin 7) :
    Ideal.hostReduceAdd h' y init (ix4 b c i j) = init + ∑ p : Fin 8, ∑ q : Fin 8, y (ix6 b c i p j q) := by
  classical
  unfold Ideal.hostReduceAdd
  rw [bin_fibre h' b c i j, Finset.sum_image, Fintype.sum_prod_type]
  intro pq _ pq' _ e
  have e3 := congrFun e 3
  have e5 := congrFun e 5
  exact Prod.ext e3 e5

/-- The indices of the weighed array that a reduction over axes 3 and 4 sends to (b, c, f) are exactly the
    (b, c, f, i, j), one for each grid position (i, j). -/
theorem grid_fibre (h' : S32x256x16x7x7.ReducesTo [3, 4] S32x256x16) (b : Fin 32) (c : Fin 256) (f : Fin 16) :
    (Finset.univ.filter fun m : S32x256x16x7x7.Idx => h'.drop m = ix3 b c f)
      = (Finset.univ : Finset (Fin 7 × Fin 7)).image (fun ij => ix5 b c f ij.1 ij.2) := by
  classical
  ext m
  have h0 : (h'.drop m 0 : Nat) = m 0 := Shape.ReducesTo.drop_apply_val_of_eq h' m 0 0
  have h1 : (h'.drop m 1 : Nat) = m 1 := Shape.ReducesTo.drop_apply_val_of_eq h' m 1 1
  have h2 : (h'.drop m 2 : Nat) = m 2 := Shape.ReducesTo.drop_apply_val_of_eq h' m 2 2
  simp only [Finset.mem_filter, Finset.mem_univ, true_and, Finset.mem_image, Prod.exists]
  constructor
  · intro e
    rw [e] at h0 h1 h2
    refine ⟨(m 3 : Fin 7), (m 4 : Fin 7), ?_⟩
    funext a
    match a with
    | ⟨0, _⟩ => exact Fin.ext h0
    | ⟨1, _⟩ => exact Fin.ext h1
    | ⟨2, _⟩ => exact Fin.ext h2
    | ⟨3, _⟩ => rfl
    | ⟨4, _⟩ => rfl
  · rintro ⟨i, j, rfl⟩
    funext a
    match a with
    | ⟨0, _⟩ => exact Fin.ext h0
    | ⟨1, _⟩ => exact Fin.ext h1
    | ⟨2, _⟩ => exact Fin.ext h2

/-- Distinct grid positions give distinct indices. -/
theorem grid_injective (b : Fin 32) (c : Fin 256) (f : Fin 16) :
    Function.Injective (fun ij : Fin 7 × Fin 7 => (ix5 b c f ij.1 ij.2 : S32x256x16x7x7.Idx)) := by
  intro ij ij' e
  exact Prod.ext (congrFun e 3) (congrFun e 4)

/-- The host sum over axes 3 and 4 of a rank-5 array, at (b, c, f): the initial value plus the sum over the grid. -/
theorem hostReduceAdd_grid (h' : S32x256x16x7x7.ReducesTo [3, 4] S32x256x16) (y : S32x256x16x7x7.Idx → EReal)
    (init : EReal) (b : Fin 32) (c : Fin 256) (f : Fin 16) :
    Ideal.hostReduceAdd h' y init (ix3 b c f) = init + ∑ ij : Fin 7 × Fin 7, y (ix5 b c f ij.1 ij.2) := by
  classical
  unfold Ideal.hostReduceAdd
  rw [grid_fibre h' b c f, Finset.sum_image ((grid_injective b c f).injOn)]

/-- A host reduction over axes 3 and 4 with a commutative and associative body, at (b, c, f): the fold of the body,
    from the initial value, over the grid. -/
theorem hostReduce_grid (op : EReal → EReal → EReal) [Std.Commutative op] [Std.Associative op]
    (h' : S32x256x16x7x7.ReducesTo [3, 4] S32x256x16) (y : S32x256x16x7x7.Idx → EReal) (init : S_.Idx → EReal)
    (hu : 0 < S_.numel) (b : Fin 32) (c : Fin 256) (f : Fin 16) :
    Host.reduce op y init h' hu (ix3 b c f)
      = (Finset.univ : Finset (Fin 7 × Fin 7)).fold op (init (Shape.Idx.first hu)) (fun ij => y (ix5 b c f ij.1 ij.2)) := by
  classical
  rw [Host.reduce_eq_fold, grid_fibre h' b c f, Finset.fold_image ((grid_injective b c f).injOn)]
  rfl

/-! ## The stages -/

variable (x0 : Vec Ideal S32x256x56x56 .f32) (x3 : Vec Ideal S16x7x7 .f32)

/-- Image `b` of the batch, and the filters, over plain coordinates. -/
abbrev image (b : Fin 32) : Fin 256 → Fin 56 → Fin 56 → EReal := fun c h w => x0 (ix4 b c h w)
abbrev filters : Fin 16 → Fin 7 → Fin 7 → EReal := fun f p q => x3 (ix3 f p q)

/-- The pooled grid: the sum of a bin's 64 entries divided by 64. -/
theorem pooled_ref (b : Fin 32) (c : Fin 256) (i j : Fin 7) :
    val_main_v3 (F := Ideal) x0 (ix4 b c i j) = Spec.pool (image x0 b) c i j := by
  rw [val_main_v3_apply, val_main_v2_apply, val_main_cst_0_apply, Ideal.hostDivf_def]
  unfold val_main_v1
  simp only [Host.reduceAdd, Ideal.hostReduceAdd_def]
  rw [hostReduceAdd_bins, val_main_cst_apply]
  show Ideal.div (Ideal.ofBits .f32 0x00000000#32 + _) _ = _
  rw [Ideal.ofBits_zero_f32, zero_add]
  unfold Spec.pool
  refine congrArg (Ideal.div · _) (Finset.sum_congr rfl fun p _ => Finset.sum_congr rfl fun q _ => ?_)
  exact binned_apply x0 b c i p j q

/-- The pooled grid times the filters. -/
theorem weighed_ref (b : Fin 32) (c : Fin 256) (f : Fin 16) (i j : Fin 7) :
    val_main_v8 (F := Ideal) x0 x3 (ix5 b c f i j) = Spec.weighed (image x0 b) (filters x3) c f (i, j) := by
  rw [val_main_v8_apply, val_main_v6_apply, val_main_v4_apply, val_main_v7_apply, val_main_v5_apply]
  have e1 : idx_main_v4 (idx_main_v6 (ix5 b c f i j)) = ix4 b c i j :=
    funext fun a => Fin.ext (by match a with | ⟨0, _⟩ => rfl | ⟨1, _⟩ => rfl | ⟨2, _⟩ => rfl | ⟨3, _⟩ => rfl)
  have e2 : idx_main_v5 (idx_main_v7 (ix5 b c f i j)) = ix3 f i j :=
    funext fun a => Fin.ext (by match a with | ⟨0, _⟩ => rfl | ⟨1, _⟩ => rfl | ⟨2, _⟩ => rfl)
  rw [e1, e2, pooled_ref]
  rfl

/-- Coordinates of the (image, channel, frequency) index the frequency sum reads. -/
theorem idx12_eq (b : Fin 32) (c : Fin 256) (k : Fin 16) : idx_main_v12 (ix2 b c) k = ix3 b c k :=
  funext fun a => Fin.ext (by match a with | ⟨0, _⟩ => rfl | ⟨1, _⟩ => rfl | ⟨2, _⟩ => rfl)
theorem idx16_eq (b : Fin 32) (c : Fin 256) (k : Fin 16) : idx_main_v16 (ix2 b c) k = ix3 b c k :=
  funext fun a => Fin.ext (by match a with | ⟨0, _⟩ => rfl | ⟨1, _⟩ => rfl | ⟨2, _⟩ => rfl)
theorem idx20_eq (b : Fin 32) (c : Fin 256) (k : Fin 16) : idx_main_v20 (ix2 b c) k = ix3 b c k :=
  funext fun a => Fin.ext (by match a with | ⟨0, _⟩ => rfl | ⟨1, _⟩ => rfl | ⟨2, _⟩ => rfl)

/-- The grid sum of the weighed array at (b, c, f). -/
theorem gridSum_ref (b : Fin 32) (c : Fin 256) (f : Fin 16) :
    val_main_v9 (F := Ideal) x0 x3 (ix3 b c f)
      = ∑ ij : Fin 7 × Fin 7, Spec.weighed (image x0 b) (filters x3) c f ij := by
  unfold val_main_v9
  simp only [Host.reduceAdd, Ideal.hostReduceAdd_def]
  rw [hostReduceAdd_grid, val_main_cst_1_apply]
  show Ideal.ofBits .f32 0x00000000#32 + _ = _
  rw [Ideal.ofBits_zero_f32, zero_add]
  exact Finset.sum_congr rfl fun ij _ => weighed_ref x0 x3 b c f ij.1 ij.2

theorem featAvg_ref (b : Fin 32) (c : Fin 256) :
    val_main_v14 (F := Ideal) x0 x3 (ix2 b c) = Spec.featAvg (image x0 b) (filters x3) c := by
  rw [val_main_v14_apply, val_main_v13_apply, val_main_cst_4_apply, val_main_v12_apply, val_main_cst_3_apply,
    Ideal.hostDivf_def]
  show Ideal.div (Ideal.ofBits .f32 0x00000000#32 + _) _ = _
  rw [Ideal.ofBits_zero_f32, zero_add]
  unfold Spec.featAvg
  refine congrArg (Ideal.div · _) (Finset.sum_congr rfl fun k _ => ?_)
  rw [idx12_eq, val_main_v11_apply, val_main_v10_apply, val_main_cst_2_apply, Ideal.hostDivf_def, gridSum_ref]
  rfl

/-- The greatest entry of the weighed grid at (b, c, f). -/
theorem gridMax_ref (b : Fin 32) (c : Fin 256) (f : Fin 16) :
    val_main_v15 (F := Ideal) x0 x3 (ix3 b c f)
      = (Finset.univ : Finset (Fin 7 × Fin 7)).fold max ⊥ (Spec.weighed (image x0 b) (filters x3) c f) := by
  unfold val_main_v15
  generalize hy : val_main_v8 (F := Ideal) x0 x3 = y
  have hw : ∀ ij : Fin 7 × Fin 7, y (ix5 b c f ij.1 ij.2) = Spec.weighed (image x0 b) (filters x3) c f ij :=
    fun ij => hy ▸ weighed_ref x0 x3 b c f ij.1 ij.2
  refine (hostReduce_grid (FloatOps.maximumf (F := Ideal) (φ := .f32)) _ y _ _ b c f).trans ?_
  rw [val_main_cst_5_apply]
  show Finset.fold max (Ideal.ofBits .f32 0xFF800000#32) _ _ = _
  rw [Spec.neg_inf_eq]
  exact congrArg (Finset.fold max ⊥ · Finset.univ) (funext hw)

/-- The least entry of the weighed grid at (b, c, f). -/
theorem gridMin_ref (b : Fin 32) (c : Fin 256) (f : Fin 16) :
    val_main_v19 (F := Ideal) x0 x3 (ix3 b c f)
      = (Finset.univ : Finset (Fin 7 × Fin 7)).fold min ⊤ (Spec.weighed (image x0 b) (filters x3) c f) := by
  unfold val_main_v19
  generalize hy : val_main_v8 (F := Ideal) x0 x3 = y
  have hw : ∀ ij : Fin 7 × Fin 7, y (ix5 b c f ij.1 ij.2) = Spec.weighed (image x0 b) (filters x3) c f ij :=
    fun ij => hy ▸ weighed_ref x0 x3 b c f ij.1 ij.2
  refine (hostReduce_grid (FloatOps.minimumf (F := Ideal) (φ := .f32)) _ y _ _ b c f).trans ?_
  rw [val_main_cst_8_apply]
  show Finset.fold min (Ideal.ofBits .f32 0x7F800000#32) _ _ = _
  rw [Spec.pos_inf_eq]
  exact congrArg (Finset.fold min ⊤ · Finset.univ) (funext hw)

theorem featMax_ref (b : Fin 32) (c : Fin 256) :
    val_main_v18 (F := Ideal) x0 x3 (ix2 b c) = Spec.featMax (image x0 b) (filters x3) c := by
  rw [val_main_v18_apply, val_main_v17_apply, val_main_cst_7_apply, val_main_v16_apply, val_main_cst_6_apply,
    Ideal.hostDivf_def]
  show Ideal.div (Ideal.ofBits .f32 0x00000000#32 + _) _ = _
  rw [Ideal.ofBits_zero_f32, zero_add]
  have hs : (∑ k : Fin 16, val_main_v15 (F := Ideal) x0 x3 (idx_main_v16 (ix2 b c) k))
      = ∑ f : Fin 16, (Finset.univ : Finset (Fin 7 × Fin 7)).fold max ⊥ (Spec.weighed (image x0 b) (filters x3) c f) :=
    Finset.sum_congr rfl fun k _ => by rw [idx16_eq, gridMax_ref]
  rw [hs]
  rfl

theorem featMin_ref (b : Fin 32) (c : Fin 256) :
    val_main_v22 (F := Ideal) x0 x3 (ix2 b c) = Spec.featMin (image x0 b) (filters x3) c := by
  rw [val_main_v22_apply, val_main_v21_apply, val_main_cst_10_apply, val_main_v20_apply, val_main_cst_9_apply,
    Ideal.hostDivf_def]
  show Ideal.div (Ideal.ofBits .f32 0x00000000#32 + _) _ = _
  rw [Ideal.ofBits_zero_f32, zero_add]
  have hs : (∑ k : Fin 16, val_main_v19 (F := Ideal) x0 x3 (idx_main_v20 (ix2 b c) k))
      = ∑ f : Fin 16, (Finset.univ : Finset (Fin 7 × Fin 7)).fold min ⊤ (Spec.weighed (image x0 b) (filters x3) c f) :=
    Finset.sum_congr rfl fun k _ => by rw [idx20_eq, gridMin_ref]
  rw [hs]
  rfl

end Cert.RefFeatures

end
-- ==== Proof.RefTail.lean ====
/-
  The reference's second half: from the three feature vectors through the two-layer map, the logistic function
  (spelt as 1 / (1 + e^(-t))) and the final product with the input.
-/
import proofs.«424325_j292057776143_3_alg».proof.Proof.Gen.ReferenceIdeal.Read
import proofs.«424325_j292057776143_3_alg».proof.Proof.Spec
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

noncomputable section

namespace Cert.RefTail

open Idealize.ShloMosaic Idealize.ShloMosaic.ValueIdx Cert.ReferenceIdeal Cert.ReferenceIdeal.Read

variable (x0 : Vec Ideal S32x256x56x56 .f32) (x1 : Vec Ideal S16x256 .f32) (x2 : Vec Ideal S256x16 .f32)
  (x3 : Vec Ideal S16x7x7 .f32)

/-- The two layers over plain coordinates: `w1` is (hidden unit, channel), `w2` is (channel, hidden unit). -/
abbrev layer1 : Fin 16 → Fin 256 → EReal := fun r k => x1 (ix2 r k)
abbrev layer2 : Fin 256 → Fin 16 → EReal := fun c r => x2 (ix2 c r)

/- The index maps of the reads, at indices built from plain coordinates: each contraction reads row `b` of the left
   factor and a column of the right one, and each transpose swaps the two coordinates. -/
theorem lidx27 (b : Fin 32) (c : Fin 256) (r : Fin 16) : lidx_main_v27 (ix2 b c) r = ix2 b r :=
  funext fun a => Fin.ext (by match a with | ⟨0, _⟩ => rfl | ⟨1, _⟩ => rfl)
theorem ridx27 (b : Fin 32) (c : Fin 256) (r : Fin 16) : ridx_main_v27 (ix2 b c) r = ix2 r c :=
  funext fun a => Fin.ext (by match a with | ⟨0, _⟩ => rfl | ⟨1, _⟩ => rfl)
theorem lidx24 (b : Fin 32) (r : Fin 16) (k : Fin 256) : lidx_main_v24 (ix2 b r) k = ix2 b k :=
  funext fun a => Fin.ext (by match a with | ⟨0, _⟩ => rfl | ⟨1, _⟩ => rfl)
theorem ridx24 (b : Fin 32) (r : Fin 16) (k : Fin 256) : ridx_main_v24 (ix2 b r) k = ix2 k r :=
  funext fun a => Fin.ext (by match a with | ⟨0, _⟩ => rfl | ⟨1, _⟩ => rfl)
theorem tr_w1_23 (k : Fin 256) (r : Fin 16) : idx_main_v23 (ix2 k r) = ix2 r k :=
  funext fun a => Fin.ext (by match a with | ⟨0, _⟩ => rfl | ⟨1, _⟩ => rfl)
theorem tr_w2_26 (r : Fin 16) (c : Fin 256) : idx_main_v26 (ix2 r c) = ix2 c r :=
  funext fun a => Fin.ext (by match a with | ⟨0, _⟩ => rfl | ⟨1, _⟩ => rfl)
theorem lidx32 (b : Fin 32) (c : Fin 256) (r : Fin 16) : lidx_main_v32 (ix2 b c) r = ix2 b r :=
  funext fun a => Fin.ext (by match a with | ⟨0, _⟩ => rfl | ⟨1, _⟩ => rfl)
theorem ridx32 (b : Fin 32) (c : Fin 256) (r : Fin 16) : ridx_main_v32 (ix2 b c) r = ix2 r c :=
  funext fun a => Fin.ext (by match a with | ⟨0, _⟩ => rfl | ⟨1, _⟩ => rfl)
theorem lidx29 (b : Fin 32) (r : Fin 16) (k : Fin 256) : lidx_main_v29 (ix2 b r) k = ix2 b k :=
  funext fun a => Fin.ext (by match a with | ⟨0, _⟩ => rfl | ⟨1, _⟩ => rfl)
theorem ridx29 (b : Fin 32) (r : Fin 16) (k : Fin 256) : ridx_main_v29 (ix2 b r) k = ix2 k r :=
  funext fun a => Fin.ext (by match a with | ⟨0, _⟩ => rfl | ⟨1, _⟩ => rfl)
theorem tr_w1_28 (k : Fin 256) (r : Fin 16) : idx_main_v28 (ix2 k r) = ix2 r k :=
  funext fun a => Fin.ext (by match a with | ⟨0, _⟩ => rfl | ⟨1, _⟩ => rfl)
theorem tr_w2_31 (r : Fin 16) (c : Fin 256) : idx_main_v31 (ix2 r c) = ix2 c r :=
  funext fun a => Fin.ext (by match a with | ⟨0, _⟩ => rfl | ⟨1, _⟩ => rfl)
theorem lidx38 (b : Fin 32) (c : Fin 256) (r : Fin 16) : lidx_main_v38 (ix2 b c) r = ix2 b r :=
  funext fun a => Fin.ext (by match a with | ⟨0, _⟩ => rfl | ⟨1, _⟩ => rfl)
theorem ridx38 (b : Fin 32) (c : Fin 256) (r : Fin 16) : ridx_main_v38 (ix2 b c) r = ix2 r c :=
  funext fun a => Fin.ext (by match a with | ⟨0, _⟩ => rfl | ⟨1, _⟩ => rfl)
theorem lidx35 (b : Fin 32) (r : Fin 16) (k : Fin 256) : lidx_main_v35 (ix2 b r) k = ix2 b k :=
  funext fun a => Fin.ext (by match a with | ⟨0, _⟩ => rfl | ⟨1, _⟩ => rfl)
theorem ridx35 (b : Fin 32) (r : Fin 16) (k : Fin 256) : ridx_main_v35 (ix2 b r) k = ix2 k r :=
  funext fun a => Fin.ext (by match a with | ⟨0, _⟩ => rfl | ⟨1, _⟩ => rfl)
theorem tr_w1_34 (k : Fin 256) (r : Fin 16) : idx_main_v34 (ix2 k r) = ix2 r k :=
  funext fun a => Fin.ext (by match a with | ⟨0, _⟩ => rfl | ⟨1, _⟩ => rfl)
theorem tr_w2_37 (r : Fin 16) (c : Fin 256) : idx_main_v37 (ix2 r c) = ix2 c r :=
  funext fun a => Fin.ext (by match a with | ⟨0, _⟩ => rfl | ⟨1, _⟩ => rfl)

theorem idx_gate (b : Fin 32) (c : Fin 256) (h w : Fin 56) : idx_main_v46 (idx_main_v47 (ix4 b c h w)) = ix2 b c :=
  funext fun a => Fin.ext (by match a with | ⟨0, _⟩ => rfl | ⟨1, _⟩ => rfl)

/-- The first branch: the two-layer map of the mean feature.  The inner contraction is the dot product with row `r` of the first layer, its positive part is the hidden unit, and the outer contraction weighs the hidden units by row `c` of the second layer. -/
theorem mix_avg (b : Fin 32) (c : Fin 256) :
    val_main_v27 (F := Ideal) x0 x1 x2 x3 (ix2 b c)
      = Spec.mix (layer1 x1) (layer2 x2) (fun k => val_main_v14 (F := Ideal) x0 x3 (ix2 b k)) c := by
  rw [val_main_v27_apply]
  unfold Spec.mix Spec.hidden
  refine Finset.sum_congr rfl fun r _ => ?_
  rw [lidx27, ridx27, val_main_v25_apply, val_main_v26_apply, tr_w2_26, val_main_v24_apply,
    val_main_call0_v0_apply, val_main_call0_cst_apply]
  have hsum : (∑ k : Fin 256, val_main_v14 (F := Ideal) x0 x3 (lidx_main_v24 (ix2 b r) k)
        * val_main_v23 (F := Ideal) x1 (ridx_main_v24 (ix2 b r) k))
      = ∑ k : Fin 256, val_main_v14 (F := Ideal) x0 x3 (ix2 b k) * x1 (ix2 r k) :=
    Finset.sum_congr rfl fun k _ => by rw [lidx24, ridx24, val_main_v23_apply, tr_w1_23]
  rw [hsum]
  generalize val_main_v14 (F := Ideal) x0 x3 = v
  simp only [Ideal.maximumf_def, Ideal.ofBits_def, Ideal.ofBits_zero_f32]

/-- The second branch: the same two-layer map of the greatest-entry feature. -/
theorem mix_max (b : Fin 32) (c : Fin 256) :
    val_main_v32 (F := Ideal) x0 x1 x2 x3 (ix2 b c)
      = Spec.mix (layer1 x1) (layer2 x2) (fun k => val_main_v18 (F := Ideal) x0 x3 (ix2 b k)) c := by
  rw [val_main_v32_apply]
  unfold Spec.mix Spec.hidden
  refine Finset.sum_congr rfl fun r _ => ?_
  rw [lidx32, ridx32, val_main_v30_apply, val_main_v31_apply, tr_w2_31, val_main_v29_apply,
    val_main_call1_v0_apply, val_main_call1_cst_apply]
  have hsum : (∑ k : Fin 256, val_main_v18 (F := Ideal) x0 x3 (lidx_main_v29 (ix2 b r) k)
        * val_main_v28 (F := Ideal) x1 (ridx_main_v29 (ix2 b r) k))
      = ∑ k : Fin 256, val_main_v18 (F := Ideal) x0 x3 (ix2 b k) * x1 (ix2 r k) :=
    Finset.sum_congr rfl fun k _ => by rw [lidx29, ridx29, val_main_v28_apply, tr_w1_28]
  rw [hsum]
  generalize val_main_v18 (F := Ideal) x0 x3 = v
  simp only [Ideal.maximumf_def, Ideal.ofBits_def, Ideal.ofBits_zero_f32]

/-- The third branch: the same two-layer map of the least-entry feature. -/
theorem mix_min (b : Fin 32) (c : Fin 256) :
    val_main_v38 (F := Ideal) x0 x1 x2 x3 (ix2 b c)
      = Spec.mix (layer1 x1) (layer2 x2) (fun k => val_main_v22 (F := Ideal) x0 x3 (ix2 b k)) c := by
  rw [val_main_v38_apply]
  unfold Spec.mix Spec.hidden
  refine Finset.sum_congr rfl fun r _ => ?_
  rw [lidx38, ridx38, val_main_v36_apply, val_main_v37_apply, tr_w2_37, val_main_v35_apply,
    val_main_call2_v0_apply, val_main_call2_cst_apply]
  have hsum : (∑ k : Fin 256, val_main_v22 (F := Ideal) x0 x3 (lidx_main_v35 (ix2 b r) k)
        * val_main_v34 (F := Ideal) x1 (ridx_main_v35 (ix2 b r) k))
      = ∑ k : Fin 256, val_main_v22 (F := Ideal) x0 x3 (ix2 b k) * x1 (ix2 r k) :=
    Finset.sum_congr rfl fun k _ => by rw [lidx35, ridx35, val_main_v34_apply, tr_w1_34]
  rw [hsum]
  generalize val_main_v22 (F := Ideal) x0 x3 = v
  simp only [Ideal.maximumf_def, Ideal.ofBits_def, Ideal.ofBits_zero_f32]

/-- The result at `(b, c, h, w)`: the input entry times the logistic function of the three mixed feature vectors of
    image `b` at channel `c`. -/
theorem tail_ref (b : Fin 32) (c : Fin 256) (h w : Fin 56) :
    val_main_v48 (F := Ideal) x0 x1 x2 x3 (ix4 b c h w)
      = x0 (ix4 b c h w) * Ideal.logistic
          (Spec.mix (layer1 x1) (layer2 x2) (fun k => val_main_v14 (F := Ideal) x0 x3 (ix2 b k)) c
            + Spec.mix (layer1 x1) (layer2 x2) (fun k => val_main_v18 (F := Ideal) x0 x3 (ix2 b k)) c
            + Spec.mix (layer1 x1) (layer2 x2) (fun k => val_main_v22 (F := Ideal) x0 x3 (ix2 b k)) c) := by
  rw [val_main_v48_apply, val_main_v47_apply, val_main_v46_apply, idx_gate, val_main_v45_apply, val_main_v44_apply,
    val_main_cst_12_apply, val_main_v43_apply, val_main_v42_apply, val_main_cst_11_apply, val_main_v41_apply,
    val_main_v40_apply, val_main_v39_apply, val_main_v33_apply, mix_avg, mix_max, mix_min]
  simp only [Ideal.mulf_def, Ideal.hostDivf_def, Ideal.addf_def, Ideal.hostUnary_exp_def, Ideal.hostNegf_def,
    Ideal.negf_def, Ideal.ofBits_def, Spec.one_eq, Ideal.logistic]

end Cert.RefTail

end
-- ==== Proof.RefValue.lean ====
/-
  The reference's result is the specification's function of its arguments: its second half turns the three feature
  vectors into the gate and multiplies, and its first half computes exactly the specification's three feature vectors.
-/
import proofs.«424325_j292057776143_3_alg».proof.Proof.RefFeatures
import proofs.«424325_j292057776143_3_alg».proof.Proof.RefTail

noncomputable section

namespace Cert.RefValue

open Idealize.ShloMosaic Idealize.ShloMosaic.ValueIdx Cert.ReferenceIdeal Cert.ReferenceIdeal.Read

theorem ref_eq (x0 : Vec Ideal S32x256x56x56 .f32) (x1 : Vec Ideal S16x256 .f32) (x2 : Vec Ideal S256x16 .f32)
    (x3 : Vec Ideal S16x7x7 .f32) : val_main_v48 (F := Ideal) x0 x1 x2 x3 = Spec.out x0 x1 x2 x3 := by
  funext i
  obtain ⟨b, c, h, w, rfl⟩ : ∃ (b : Fin 32) (c : Fin 256) (h w : Fin 56), i = ix4 b c h w :=
    ⟨i 0, i 1, i 2, i 3, eq_ix4 i⟩
  rw [RefTail.tail_ref]
  simp only [RefFeatures.featAvg_ref, RefFeatures.featMax_ref, RefFeatures.featMin_ref]
  rfl

end Cert.RefValue

end
-- ==== Proof.lean ====
/-
  The certificate: a gated image.

  Both programs take a batch of 32 images (256 channels of 56 x 56), two layers of weights and 16 filters of 7 x 7, and
  return the batch with every channel multiplied by a gate between 0 and 1.  The gate of a channel is the logistic
  function of a sum of three terms; each term sends one length-256 feature vector of the image through the same
  two-layer map; the three feature vectors are, channel by channel, the mean, the greatest and the least entry of the
  channel's 7 x 7 grid of 8 x 8-bin means weighed by a filter, each averaged over the 16 filters.

  The kernel program does this in two passes over the batch (first the gates, image by image; then the product),
  the reference in one expression.  Over the extended reals they differ only in how indices are named, in the order
  of sums, and in the mean of a bin: the kernel averages eight row means, the reference divides the sum of 64 entries
  by 64.  These agree because multiplying by 1/8 distributes over a sum of extended reals.  No property of the inputs
  is used: the equality holds whatever infinities the arrays hold.

  The three frames: the kernel programs' are the generated ones; the reference's is its generated run with the
  result dropped.  The kernel program's value is read off the same launch that proves its frame, with the result
  array kept in the post, then through both regions block by block.
-/
import proofs.«424325_j292057776143_3_alg».proof.Defs
import proofs.«424325_j292057776143_3_alg».proof.Proof.Gen.Kernel
import proofs.«424325_j292057776143_3_alg».proof.Proof.Gen.Kernel.Skeleton
import proofs.«424325_j292057776143_3_alg».proof.Proof.Gen.Kernel.Launch
import proofs.«424325_j292057776143_3_alg».proof.Proof.Gen.Kernel.Points
import proofs.«424325_j292057776143_3_alg».proof.Proof.Gen.Kernel.Frame
import proofs.«424325_j292057776143_3_alg».proof.Proof.Gen.KernelIdeal
import proofs.«424325_j292057776143_3_alg».proof.Proof.Gen.KernelIdeal.Skeleton
import proofs.«424325_j292057776143_3_alg».proof.Proof.Gen.KernelIdeal.Launch
import proofs.«424325_j292057776143_3_alg».proof.Proof.Gen.KernelIdeal.Points
import proofs.«424325_j292057776143_3_alg».proof.Proof.Gen.KernelIdeal.Frame
import proofs.«424325_j292057776143_3_alg».proof.Proof.Gen.ReferenceIdeal
import proofs.«424325_j292057776143_3_alg».proof.Proof.Gen.ReferenceIdeal.Run
import proofs.«424325_j292057776143_3_alg».proof.Proof.Gen.ReferenceIdeal.Read
import proofs.«424325_j292057776143_3_alg».proof.Proof.Gen.Pre_finite_inputs
import proofs.«424325_j292057776143_3_alg».proof.Proof.KernelRun
import proofs.«424325_j292057776143_3_alg».proof.Proof.KernelValue
import proofs.«424325_j292057776143_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result array at the specification's function of the arguments they agree on. -/
theorem algebraic : Cert.algebraic_KernelIdeal_ReferenceIdeal := by
  intro m ρ m' ρ' _ hagree
  refine ⟨fun c => Cert.KernelValue.outArr m c, ?_, ?_⟩
  · exact (θ_run Cert.KernelIdeal.defs _ _).mono
      (fun r h c => ⟨(h c).1.trans (Cert.KernelValue.result m ρ c), (h c).2⟩)
      (Cert.KernelIdeal.RunValue.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v48_eq, (hagree c).1, (hagree c).2.1, (hagree c).2.2.1, (hagree c).2.2.2]
    exact Cert.RefValue.ref_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
